-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S128x128 : Shape := ⟨2, ![128, 128]⟩
abbrev S128x50 : Shape := ⟨2, ![128, 50]⟩
abbrev S128 : Shape := ⟨1, ![128]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S8x1024x64 : S_.BroadcastsInDim S8x1024x64 (![] : Fin 0 → Fin S8x1024x64.rank)
  reducesTo_S8x1024x64_S_d0_1_2 : S8x1024x64.ReducesTo [0, 1, 2] S_
  bcast_S_S8x1024x64x50 : S_.BroadcastsInDim S8x1024x64x50 (![] : Fin 0 → Fin S8x1024x64x50.rank)
  reducesTo_S8x1024x64x50_S_d0_1_2_3 : S8x1024x64x50.ReducesTo [0, 1, 2, 3] S_
  bcast_S_S128x128 : S_.BroadcastsInDim S128x128 (![] : Fin 0 → Fin S128x128.rank)
  reducesTo_S128x128_S_d0_1 : S128x128.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg2 : IVec S8x1024x64 32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S8x1024x64 32 := broadcastInDim S8x1024x64 ![] bcast_S_S8x1024x64 main_c_24
  let main_v65 : IVec S8x1024x64 1 := cmpi .sge main_arg2 main_v64
  let main_c_25 : IVec S_ 1 := constantI S_ 1 1#1
  let main_v66 : IVec S_ 1 := (fun x v => Host.reduce IntOp.andi x v reducesTo_S8x1024x64_S_d0_1_2 h_S_) main_v65 main_c_25
  let main_v67 : IVec S_ 1 := andi main_v63 main_v66
  main_v67

def fn_part2 {F : FTy → Type} [FloatOps F] (main_arg2 : IVec S8x1024x64 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_v48 main_v49 main_v50

def fn_part1 {F : FTy → Type} [FloatOps F] (main_arg2 : IVec S8x1024x64 32) (main_arg5 : FVec F S128x128 .f32) (main_arg6 : FVec F S128x50 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S8x1024x64x50 1) : IVec S_ 1 :=
  let main_c_5 : IVec S_ 1 := constantI S_ 1 1#1
  let main_v17 : IVec S_ 1 := (fun x v => Host.reduce IntOp.andi x v reducesTo_S8x1024x64x50_S_d0_1_2_3 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x50 .f32 := Host.absf main_arg6
  let main_cst_8 : FVec F S_ .f32 := constant S_ .f32 0x7F800000#32
  let main_v25 : FVec F S128x50 .f32 := broadcastInDim S128x50 ![] bcast_S_S128x50 main_cst_8
  let main_v26 : IVec S128x50 1 := cmpf .olt main_v24 main_v25
  let main_c_9 : IVec S_ 1 := constantI S_ 1 1#1
  let main_v27 : IVec S_ 1 := (fun x v => Host.reduce IntOp.andi x v reducesTo_S128x50_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S8x1024x128 .f32) (main_arg1 : FVec F S8x1024x64 .f32) (main_arg2 : IVec S8x1024x64 32) (main_arg3 : FVec F S8x1024x64 .f32) (main_arg4 : FVec F S8x1024x64x50 .f32) (main_arg5 : FVec F S128x128 .f32) (main_arg6 : FVec F S128x50 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S8x1024x64 .f32 := Host.absf main_arg1
  let main_cst_0 : FVec F S_ .f32 := constant S_ .f32 0x7F800000#32
  let main_v5 : FVec F S8x1024x64 .f32 := broadcastInDim S8x1024x64 ![] bcast_S_S8x1024x64 main_cst_0
  let main_v6 : IVec S8x1024x64 1 := cmpf .olt main_v4 main_v5
  let main_c_1 : IVec S_ 1 := constantI S_ 1 1#1
  let main_v7 : IVec S_ 1 := (fun x v => Host.reduce IntOp.andi x v reducesTo_S8x1024x64_S_d0_1_2 h_S_) main_v6 main_c_1
  let main_v8 : IVec S_ 1 := andi main_v3 main_v7
  let main_v9 : FVec F S8x1024x64 .f32 := Host.absf main_arg3
  let main_cst_2 : FVec F S_ .f32 := constant S_ .f32 0x7F800000#32
  let main_v10 : FVec F S8x1024x64 .f32 := broadcastInDim S8x1024x64 ![] bcast_S_S8x1024x64 main_cst_2
  let main_v11 : IVec S8x1024x64 1 := cmpf .olt main_v9 main_v10
  let main_c_3 : IVec S_ 1 := constantI S_ 1 1#1
  let main_v12 : IVec S_ 1 := (fun x v => Host.reduce IntOp.andi x v reducesTo_S8x1024x64_S_d0_1_2 h_S_) main_v11 main_c_3
  let main_v13 : IVec S_ 1 := andi main_v8 main_v12
  let main_v14 : FVec F S8x1024x64x50 .f32 := Host.absf main_arg4
  let main_cst_4 : FVec F S_ .f32 := constant S_ .f32 0x7F800000#32
  let main_v15 : FVec F S8x1024x64x50 .f32 := broadcastInDim S8x1024x64x50 ![] bcast_S_S8x1024x64x50 main_cst_4
  let main_v16 : IVec S8x1024x64x50 1 := cmpf .olt main_v14 main_v15
  fn_part1 (F := F) main_arg2 main_arg5 main_arg6 main_arg7 main_arg8 main_arg9 main_arg10 main_arg11 main_arg12 main_arg13 main_v13 main_v16
-- ==== Kernel.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S128x128 : Shape := ⟨2, ![128, 128]⟩
abbrev S128x50 : Shape := ⟨2, ![128, 50]⟩
abbrev S128 : Shape := ⟨1, ![128]⟩
abbrev S_ : Shape := ⟨0, ![]⟩
abbrev S1x128 : Shape := ⟨2, ![1, 128]⟩
abbrev S1x1024x128 : Shape := ⟨3, ![1, 1024, 128]⟩
abbrev S1024x128 : Shape := ⟨2, ![1024, 128]⟩
abbrev S1x64x64x50 : Shape := ⟨4, ![1, 64, 64, 50]⟩
abbrev S1x64x64 : Shape := ⟨3, ![1, 64, 64]⟩
abbrev S1x64x128 : Shape := ⟨3, ![1, 64, 128]⟩
abbrev S64x64x50 : Shape := ⟨3, ![64, 64, 50]⟩
abbrev S64x64 : Shape := ⟨2, ![64, 64]⟩
abbrev S4096x50 : Shape := ⟨2, ![4096, 50]⟩
abbrev S50x128 : Shape := ⟨2, ![50, 128]⟩
abbrev S4096x128 : Shape := ⟨2, ![4096, 128]⟩
abbrev S64x64x128 : Shape := ⟨3, ![64, 64, 128]⟩
abbrev S64x64x1 : Shape := ⟨3, ![64, 64, 1]⟩
abbrev S64x64x256 : Shape := ⟨3, ![64, 64, 256]⟩
abbrev S256x128 : Shape := ⟨2, ![256, 128]⟩
abbrev S4096x256 : Shape := ⟨2, ![4096, 256]⟩
abbrev S64x128 : Shape := ⟨2, ![64, 128]⟩

abbrev nBuf : Space → Nat
  | .hbm => 28
  | .vmem => 25
  | .smem => 0
  | _ => 0

abbrev bufTy : (tb : Table) → Fin (tcTables nBuf tb) → BufTy
  | .hbm, ⟨0, _⟩ => ⟨S8x1024x128, .f32⟩
  | .hbm, ⟨1, _⟩ => ⟨S8x1024x64, .f32⟩
  | .hbm, ⟨2, _⟩ => ⟨S8x1024x64, .i32⟩
  | .hbm, ⟨3, _⟩ => ⟨S8x1024x64, .f32⟩
  | .hbm, ⟨4, _⟩ => ⟨S8x1024x64x50, .f32⟩
  | .hbm, ⟨5, _⟩ => ⟨S128x128, .f32⟩
  | .hbm, ⟨6, _⟩ => ⟨S128x50, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8x1024x64, .i32⟩
  | .hbm, ⟨18, _⟩ => ⟨S8x1024x64, .i32⟩
  | .hbm, ⟨19, _⟩ => ⟨S_, .i32⟩
  | .hbm, ⟨20, _⟩ => ⟨S8x1024x64, .i32⟩
  | .hbm, ⟨21, _⟩ => ⟨S8x1024x64, .i32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S8x1024x128, .f32⟩
  | .hbm, ⟨27, _⟩ => ⟨S8x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S128x128, .f32⟩
  | .local _ .vmem, ⟨3, _⟩ => ⟨S1x1024x128, .f32⟩
  | .local _ .vmem, ⟨4, _⟩ => ⟨S1x1024x128, .f32⟩
  | .local _ .vmem, ⟨5, _⟩ => ⟨S1x64x64x50, .f32⟩
  | .local _ .vmem, ⟨6, _⟩ => ⟨S1x64x64x50, .f32⟩
  | .local _ .vmem, ⟨7, _⟩ => ⟨S1x64x64, .f32⟩
  | .local _ .vmem, ⟨8, _⟩ => ⟨S1x64x64, .f32⟩
  | .local _ .vmem, ⟨9, _⟩ => ⟨S1x64x64, .i32⟩
  | .local _ .vmem, ⟨10, _⟩ => ⟨S1x64x64, .i32⟩
  | .local _ .vmem, ⟨11, _⟩ => ⟨S1x64x64, .f32⟩
  | .local _ .vmem, ⟨12, _⟩ => ⟨S1x64x64, .f32⟩
  | .local _ .vmem, ⟨13, _⟩ => ⟨S1x1024x128, .f32⟩
  | .local _ .vmem, ⟨14, _⟩ => ⟨S1x1024x128, .f32⟩
  | .local _ .vmem, ⟨15, _⟩ => ⟨S128x50, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x64x128, .f32⟩
  | .local _ .vmem, ⟨24, _⟩ => ⟨S1x64x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x64x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x64 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S128x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S1x64x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

class Facts₀ : Prop where
  bcast_S_S8x1024x64 : S_.BroadcastsInDim S8x1024x64 (![] : Fin 0 → Fin S8x1024x64.rank)
  shapeCasts_S128_S1x128 : S128.ShapeCasts S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  shapeCasts_S1024x128_S1x1024x128 : S1024x128.ShapeCasts S1x1024x128
  inb_S1x64x64x50_S1x64x64x50_0_0_0_0 : ∀ a, (![0, 0, 0, 0] : Fin 4 → Nat) a + S1x64x64x50.size a ≤ S1x64x64x50.size a
  h_S1x64x64x50 : 0 < S1x64x64x50.numel
  shapeCasts_S1x64x64x50_S64x64x50 : S1x64x64x50.ShapeCasts S64x64x50
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S128x50_S128x50_0_0 : ∀ a, (![0, 0] : Fin 2 → Nat) a + S128x50.size a ≤ S128x50.size a
  h_S128x50 : 0 < S128x50.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S64x64x50_S4096x50 : S64x64x50.ShapeCasts S4096x50
  transposes_S128x50_p1_0_S50x128 : S128x50.Transposes [1, 0] S50x128
  broadcasts_S1x128_S4096x128 : S1x128.Broadcasts S4096x128
  natLt_1_32 : 1 < 32
  shapeCasts_S4096x128_S64x64x128 : S4096x128.ShapeCasts S64x64x128
  shapeCasts_S64x64_S64x64x1 : S64x64.ShapeCasts S64x64x1
  broadcasts_S64x64x1_S64x64x128 : S64x64x1.Broadcasts S64x64x128
  shapeCasts_S64x64x128_S4096x128 : S64x64x128.ShapeCasts S4096x128
  iota_S64x64x256_d2_w32 : S64x64x256.Iotas .tc 32 [2]
  slices_S1024x128_o0_0_S256x128 : S1024x128.Slices ![0, 0] S256x128
  broadcasts_S64x64x1_S64x64x256 : S64x64x1.Broadcasts S64x64x256
  shapeCasts_S64x64x256_S4096x256 : S64x64x256.ShapeCasts S4096x256
  slices_S1024x128_o256_0_S256x128 : S1024x128.Slices ![256, 0] S256x128
  slices_S1024x128_o512_0_S256x128 : S1024x128.Slices ![512, 0] S256x128
  slices_S1024x128_o768_0_S256x128 : S1024x128.Slices ![768, 0] S256x128
  reduces_S64x64x128_S64x128 : S64x64x128.Reduces [1] S64x128
  broadcasts_S1x128_S64x128 : S1x128.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S1024x128_S128x128_S1024x128_1_0_0_1_n_n_wf : DotDims.WF S1024x128 S128x128 S1024x128 [1] [0] [0] [1] [] []
  dot_S4096x50_S50x128_S4096x128_1_0_0_1_n_n_wf : DotDims.WF S4096x50 S50x128 S4096x128 [1] [0] [0] [1] [] []
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .f32 = 32 ∨ (Rect.block (s := S8x1024x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x1024x128.size a
  hwx0_2 : ∀ i : grid0.Coords, EltTy.bits .f32 = 32 ∨ (Rect.block (s := S8x1024x128) S1x1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x50.size a ≤ S8x1024x64x50.size a
  hwx1_0 : ∀ i : grid1.Coords, EltTy.bits .f32 = 32 ∨ (Rect.block (s := S8x1024x64x50) S1x64x64x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S8x1024x64.size a
  hwx1_1 : ∀ i : grid1.Coords, EltTy.bits .f32 = 32 ∨ (Rect.block (s := S8x1024x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S8x1024x64.size a
  hwx1_2 : ∀ i : grid1.Coords, EltTy.bits .i32 = 32 ∨ (Rect.block (s := S8x1024x64) S1x64x64.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x64.size a ≤ S8x1024x64.size a
  hwx1_3 : ∀ i : grid1.Coords, EltTy.bits .f32 = 32 ∨ (Rect.block (s := S8x1024x64) S1x64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x128.size a ≤ S8x1024x128.size a
  hwx1_4 : ∀ i : grid1.Coords, EltTy.bits .f32 = 32 ∨ (Rect.block (s := S8x1024x128) S1x1024x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x50.size a ≤ S128x50.size a
  hwx1_5 : ∀ i : grid1.Coords, EltTy.bits .f32 = 32 ∨ (Rect.block (s := S128x50) S128x50.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x64x128.size a ≤ S8x1024x128.size a
  hwx1_13 : ∀ i : grid1.Coords, EltTy.bits .f32 = 32 ∨ (Rect.block (s := S8x1024x128) S1x64x128.size (cc1_transform_13 i) (hinb1_13 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S4096x50_S50x128_S4096x128_1_0_0_1_n_n : DotDims S4096x50 S50x128 S4096x128 where
  lhsContracting := [1]
  rhsContracting := [0]
  lhsNonContracting := [0]
  rhsNonContracting := [1]
  lhsBatch := []
  rhsBatch := []
  wf := dot_S4096x50_S50x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg4) S1x64x64x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v3) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v4) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v6) S1x64x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S128x128 : Shape := ⟨2, ![128, 128]⟩
abbrev S128x50 : Shape := ⟨2, ![128, 50]⟩
abbrev S128 : Shape := ⟨1, ![128]⟩
abbrev S8x1024x64x128 : Shape := ⟨4, ![8, 1024, 64, 128]⟩
abbrev S1x1x1x128 : Shape := ⟨4, ![1, 1, 1, 128]⟩
abbrev S_ : Shape := ⟨0, ![]⟩
abbrev S8x1024x64x1 : Shape := ⟨4, ![8, 1024, 64, 1]⟩
abbrev S1x1x128 : Shape := ⟨3, ![1, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x64, .f32⟩
  | .hbm, ⟨2, _⟩ => ⟨S8x1024x64, .i32⟩
  | .hbm, ⟨3, _⟩ => ⟨S8x1024x64, .f32⟩
  | .hbm, ⟨4, _⟩ => ⟨S8x1024x64x50, .f32⟩
  | .hbm, ⟨5, _⟩ => ⟨S128x128, .f32⟩
  | .hbm, ⟨6, _⟩ => ⟨S128x50, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S8x1024x64x128, .f32⟩
  | .hbm, ⟨15, _⟩ => ⟨S1x1x1x128, .f32⟩
  | .hbm, ⟨16, _⟩ => ⟨S8x1024x64x128, .f32⟩
  | .hbm, ⟨17, _⟩ => ⟨S8x1024x64x128, .f32⟩
  | .hbm, ⟨18, _⟩ => ⟨S_, .f32⟩
  | .hbm, ⟨19, _⟩ => ⟨S8x1024x64x128, .f32⟩
  | .hbm, ⟨20, _⟩ => ⟨S8x1024x64x128, .f32⟩
  | .hbm, ⟨21, _⟩ => ⟨S8x1024x64x128, .f32⟩
  | .hbm, ⟨22, _⟩ => ⟨S8x1024x64x128, .f32⟩
  | .hbm, ⟨23, _⟩ => ⟨S8x1024x64x128, .i1⟩
  | .hbm, ⟨24, _⟩ => ⟨S8x1024x64x128, .f32⟩
  | .hbm, ⟨25, _⟩ => ⟨S8x1024x64x128, .f32⟩
  | .hbm, ⟨26, _⟩ => ⟨S8x1024x64x128, .f32⟩
  | .hbm, ⟨27, _⟩ => ⟨S8x1024x64x128, .f32⟩
  | .hbm, ⟨28, _⟩ => ⟨S8x1024x64x128, .f32⟩
  | .hbm, ⟨29, _⟩ => ⟨S8x1024x64x128, .f32⟩
  | .hbm, ⟨30, _⟩ => ⟨S8x1024x64x128, .f32⟩
  | .hbm, ⟨31, _⟩ => ⟨S8x1024x64x128, .f32⟩
  | .hbm, ⟨32, _⟩ => ⟨S_, .f32⟩
  | .hbm, ⟨33, _⟩ => ⟨S8x1024x64x128, .f32⟩
  | .hbm, ⟨34, _⟩ => ⟨S8x1024x64x128, .f32⟩
  | .hbm, ⟨35, _⟩ => ⟨S8x1024x64x128, .f32⟩
  | .hbm, ⟨36, _⟩ => ⟨S1x1x1x128, .f32⟩
  | .hbm, ⟨37, _⟩ => ⟨S8x1024x64x128, .f32⟩
  | .hbm, ⟨38, _⟩ => ⟨S8x1024x64x128, .f32⟩
  | .hbm, ⟨39, _⟩ => ⟨S_, .f32⟩
  | .hbm, ⟨40, _⟩ => ⟨S8x1024x64, .f32⟩
  | .hbm, ⟨41, _⟩ => ⟨S8x1024x64, .f32⟩
  | .hbm, ⟨42, _⟩ => ⟨S_, .f32⟩
  | .hbm, ⟨43, _⟩ => ⟨S8x1024x64, .f32⟩
  | .hbm, ⟨44, _⟩ => ⟨S8x1024x64, .f32⟩
  | .hbm, ⟨45, _⟩ => ⟨S8x1024x64, .f32⟩
  | .hbm, ⟨46, _⟩ => ⟨S_, .f32⟩
  | .hbm, ⟨47, _⟩ => ⟨S8x1024x64, .f32⟩
  | .hbm, ⟨48, _⟩ => ⟨S8x1024x64, .f32⟩
  | .hbm, ⟨49, _⟩ => ⟨S_, .f32⟩
  | .hbm, ⟨50, _⟩ => ⟨S8x1024x64, .f32⟩
  | .hbm, ⟨51, _⟩ => ⟨S8x1024x64, .f32⟩
  | .hbm, ⟨52, _⟩ => ⟨S_, .f32⟩
  | .hbm, ⟨53, _⟩ => ⟨S8x1024x64, .f32⟩
  | .hbm, ⟨54, _⟩ => ⟨S8x1024x64, .i1⟩
  | .hbm, ⟨55, _⟩ => ⟨S8x1024x64, .f32⟩
  | .hbm, ⟨56, _⟩ => ⟨S8x1024x64, .f32⟩
  | .hbm, ⟨57, _⟩ => ⟨S8x1024x64x1, .f32⟩
  | .hbm, ⟨58, _⟩ => ⟨S8x1024x64x128, .f32⟩
  | .hbm, ⟨59, _⟩ => ⟨S8x1024x64x128, .f32⟩
  | .hbm, ⟨60, _⟩ => ⟨S8x1024x128, .f32⟩
  | .hbm, ⟨61, _⟩ => ⟨S_, .i32⟩
  | .hbm, ⟨62, _⟩ => ⟨S8x1024x64, .i32⟩
  | .hbm, ⟨63, _⟩ => ⟨S8x1024x64, .i1⟩
  | .hbm, ⟨64, _⟩ => ⟨S_, .i32⟩
  | .hbm, ⟨65, _⟩ => ⟨S8x1024x64, .i32⟩
  | .hbm, ⟨66, _⟩ => ⟨S8x1024x64, .i32⟩
  | .hbm, ⟨67, _⟩ => ⟨S8x1024x64, .i32⟩
  | .hbm, ⟨68, _⟩ => ⟨S8x1024x64x1, .i32⟩
  | .hbm, ⟨69, _⟩ => ⟨S8x1024x64x128, .f32⟩
  | .hbm, ⟨70, _⟩ => ⟨S8x1024x64x128, .f32⟩
  | .hbm, ⟨71, _⟩ => ⟨S8x1024x64x1, .f32⟩
  | .hbm, ⟨72, _⟩ => ⟨S8x1024x64x128, .f32⟩
  | .hbm, ⟨73, _⟩ => ⟨S8x1024x64x128, .f32⟩
  | .hbm, ⟨74, _⟩ => ⟨S_, .f32⟩
  | .hbm, ⟨75, _⟩ => ⟨S8x1024x128, .f32⟩
  | .hbm, ⟨76, _⟩ => ⟨S8x1024x128, .f32⟩
  | .hbm, ⟨77, _⟩ => ⟨S1x1x128, .f32⟩
  | .hbm, ⟨78, _⟩ => ⟨S8x1024x128, .f32⟩
  | .hbm, ⟨79, _⟩ => ⟨S8x1024x128, .f32⟩
  | .hbm, ⟨80, _⟩ => ⟨S_, .f32⟩
  | .hbm, ⟨81, _⟩ => ⟨S8x1024x128, .f32⟩
  | .hbm, ⟨82, _⟩ => ⟨S8x1024x128, .f32⟩
  | .hbm, ⟨83, _⟩ => ⟨S8x1024x128, .f32⟩
  | .hbm, ⟨84, _⟩ => ⟨S8x1024x128, .f32⟩
  | .hbm, ⟨85, _⟩ => ⟨S8x1024x128, .i1⟩
  | .hbm, ⟨86, _⟩ => ⟨S8x1024x128, .f32⟩
  | .hbm, ⟨87, _⟩ => ⟨S8x1024x128, .f32⟩
  | .hbm, ⟨88, _⟩ => ⟨S8x1024x128, .f32⟩
  | .hbm, ⟨89, _⟩ => ⟨S8x1024x128, .f32⟩
  | .hbm, ⟨90, _⟩ => ⟨S8x1024x128, .f32⟩
  | .hbm, ⟨91, _⟩ => ⟨S8x1024x128, .f32⟩
  | .hbm, ⟨92, _⟩ => ⟨S8x1024x128, .f32⟩
  | .hbm, ⟨93, _⟩ => ⟨S8x1024x128, .f32⟩
  | .hbm, ⟨94, _⟩ => ⟨S_, .f32⟩
  | .hbm, ⟨95, _⟩ => ⟨S8x1024x128, .f32⟩
  | .hbm, ⟨96, _⟩ => ⟨S8x1024x128, .f32⟩
  | .hbm, ⟨97, _⟩ => ⟨S8x1024x128, .f32⟩
  | .hbm, ⟨98, _⟩ => ⟨S1x1x128, .f32⟩
  | .hbm, ⟨99, _⟩ => ⟨S8x1024x128, .f32⟩
  | .hbm, ⟨100, _⟩ => ⟨S8x1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_0 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c : Ref sig .tc := ⟨.hbm, 61, rfl⟩
abbrev main_v28 : Ref sig .tc := ⟨.hbm, 62, rfl⟩
abbrev main_v29 : Ref sig .tc := ⟨.hbm, 63, rfl⟩
abbrev main_c_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_v44 : Ref sig .tc := ⟨.hbm, 93, rfl⟩
abbrev main_cst_7 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x1024x64x128_0_1_2_3 : S1x1x1x128.BroadcastsInDim S8x1024x64x128 (![0, 1, 2, 3] : Fin 4 → Fin S8x1024x64x128.rank)
  bcast_S_S8x1024x64x128 : S_.BroadcastsInDim S8x1024x64x128 (![] : Fin 0 → Fin S8x1024x64x128.rank)
  bcast_S_S8x1024x64 : S_.BroadcastsInDim S8x1024x64 (![] : Fin 0 → Fin S8x1024x64.rank)
  bcast_S8x1024x64_S8x1024x64x1_0_1_2 : S8x1024x64.BroadcastsInDim S8x1024x64x1 (![0, 1, 2] : Fin 3 → Fin S8x1024x64x1.rank)
  bcast_S8x1024x64x1_S8x1024x64x128_0_1_2_3 : S8x1024x64x1.BroadcastsInDim S8x1024x64x128 (![0, 1, 2, 3] : Fin 4 → Fin S8x1024x64x128.rank)
  reducesTo_S8x1024x64x128_S8x1024x128_d2 : S8x1024x64x128.ReducesTo [2] S8x1024x128
  h_S_ : 0 < S_.numel
  bcast_S128_S1x1x128_2 : S128.BroadcastsInDim S1x1x128 (![2] : Fin 1 → Fin S1x1x128.rank)
  bcast_S1x1x128_S8x1024x128_0_1_2 : S1x1x128.BroadcastsInDim S8x1024x128 (![0, 1, 2] : Fin 3 → Fin S8x1024x128.rank)
  bcast_S_S8x1024x128 : S_.BroadcastsInDim S8x1024x128 (![] : Fin 0 → Fin S8x1024x128.rank)
  dot_S8x1024x64x50_S128x50_S8x1024x64x128_3_1_012_0_n_n_wf : DotDims.WF S8x1024x64x50 S128x50 S8x1024x64x128 [3] [1] [0, 1, 2] [0] [] []
  dot_S8x1024x64x128_S128x128_S8x1024x64x128_3_1_012_0_n_n_wf : DotDims.WF S8x1024x64x128 S128x128 S8x1024x64x128 [3] [1] [0, 1, 2] [0] [] []
  dot_S8x1024x128_S128x128_S8x1024x128_2_1_01_0_n_n_wf : DotDims.WF S8x1024x128 S128x128 S8x1024x128 [2] [1] [0, 1] [0] [] []
  gather_S8x1024x128_S8x1024x64x1_S8x1024x64x128_3_1_0_0_1_3_11128_wf : GatherDims.WF S8x1024x128 S8x1024x64x1 S8x1024x64x128 [3] [1] [0] [1] [0] 3 ![1, 1, 128]

variable [Facts₀]

def dot_S8x1024x64x50_S128x50_S8x1024x64x128_3_1_012_0_n_n : DotDims S8x1024x64x50 S128x50 S8x1024x64x128 where
  lhsContracting := [3]
  rhsContracting := [1]
  lhsNonContracting := [0, 1, 2]
  rhsNonContracting := [0]
  lhsBatch := []
  rhsBatch := []
  wf := dot_S8x1024x64x50_S128x50_S8x1024x64x128_3_1_012_0_n_n_wf
def dot_S8x1024x64x128_S128x128_S8x1024x64x128_3_1_012_0_n_n : DotDims S8x1024x64x128 S128x128 S8x1024x64x128 where
  lhsContracting := [3]
  rhsContracting := [1]
  lhsNonContracting := [0, 1, 2]
  rhsNonContracting := [0]
  lhsBatch := []
  rhsBatch := []
  wf := dot_S8x1024x64x128_S128x128_S8x1024x64x128_3_1_012_0_n_n_wf
def dot_S8x1024x128_S128x128_S8x1024x128_2_1_01_0_n_n : DotDims S8x1024x128 S128x128 S8x1024x128 where
  lhsContracting := [2]
  rhsContracting := [1]
  lhsNonContracting := [0, 1]
  rhsNonContracting := [0]
  lhsBatch := []
  rhsBatch := []
  wf := dot_S8x1024x128_S128x128_S8x1024x128_2_1_01_0_n_n_wf
def gather_S8x1024x128_S8x1024x64x1_S8x1024x64x128_3_1_0_0_1_3_11128 : GatherDims S8x1024x128 S8x1024x64x1 S8x1024x64x128 where
  offsetDims := [3]
  collapsedSliceDims := [1]
  operandBatchingDims := [0]
  startIndicesBatchingDims := [0]
  startIndexMap := [1]
  indexVectorDim := 3
  sliceSizes := ![1, 1, 128]
  wf := gather_S8x1024x128_S8x1024x64x1_S8x1024x64x128_3_1_0_0_1_3_11128_wf

class Facts : Prop extends Facts₀ where

variable [Facts]
-- ==== Proof.Spec.lean ====
/-
  The function both programs compute, index by index on the extended reals.

  For a batch b, an atom a and an output feature p the result is
      out(b,a,p) = Σ_o v(b,a,o) · dense_w(p,o) + dense_b(p),
      v(b,a,o)   = ssp (Σ_f agg(b,a,f) · f2out_w(o,f) + f2out_b(o)),
      agg(b,a,f) = Σ_n y(b, row(b,a,n), f) · (W(b,a,n,f) · (C(r(b,a,n)) · mask(b,a,n))),
      y(b,a',f)  = Σ_d x(b,a',d) · in2f_w(f,d),
      W(b,a,n,g) = Σ_f ssp (Σ_s f_ij(b,a,n,s) · fw1(f,s) + fb1(f)) · fw2(g,f) + fb2(g),
  where ssp is the shifted softplus z ↦ max z 0 + log1p (exp (−|z|)) − log 2 (with the source's guard on a
  self-unequal argument, which never fires on the extended reals), C is the cosine cutoff
  ½ (cos (r · π/5) + 1) · [r < 5] with π the single-precision word, and row(b,a,n) is the neighbour index
  read signed and clamped into [0, 1023]. Everything about ONE atom is stated over that atom's own rows
  (its 64 neighbours' distances, indices, masks and radial features) and its batch's feature table, so that
  a tile of atoms and the whole arrays read the same definitions.
-/
import Idealize.ShloMosaic.PureOps.Ideal
import Idealize.ShloMosaic.PureOps.Ideal.Laws
import Idealize.ShloMosaic.Lib.ValueIdx

noncomputable section

open scoped BigOperators

namespace Cert.Bridge

open Idealize.ShloMosaic Idealize.ShloMosaic.ValueIdx

/-! ## The constants the two programs spell -/

/-- The single-precision zero word. -/
abbrev z0 : EReal := Ideal.ofBits .f32 0x00000000#32
/-- log 2 rounded to single precision. -/
abbrev l2 : EReal := Ideal.ofBits .f32 0x3F317218#32
/-- The kernel's folded π/5 (the single-precision π divided by five, itself a single-precision number). -/
abbrev cK : EReal := Ideal.ofBits .f32 0x3F20D97C#32
/-- π rounded to single precision. -/
abbrev piF : EReal := Ideal.ofBits .f32 0x40490FDB#32
abbrev five : EReal := Ideal.ofBits .f32 0x40A00000#32
abbrev one : EReal := Ideal.ofBits .f32 0x3F800000#32
abbrev half : EReal := Ideal.ofBits .f32 0x3F000000#32

/-! ## The scalar functions -/

/-- The shifted softplus, spelt as the kernel computes it: logaddexp(z, 0) − log 2. -/
def ssp (z : EReal) : EReal :=
  Scalar.select (Ideal.cmp .one (z - z0) (z - z0)) (z + z0)
    (max z z0 + Ideal.log1p (Ideal.exp (z0 - max (z - z0) (-(z - z0))))) - l2

/-- A one-bit condition as the number 0 or 1. -/
def bit (c : BitVec 1) : EReal := (((c.setWidth 32).toInt : ℝ) : EReal)

/-- The cosine cutoff at a distance r. -/
def cutoff (r : EReal) : EReal := (half * (Ideal.cos (r * cK) + one)) * bit (Ideal.cmp .olt r five)

/-- A neighbour word read signed and clamped into the rows of the feature table. -/
def nbrRow (n : BitVec 32) : Fin 1024 := ⟨min n.toInt.toNat 1023, by omega⟩

/-- Row r·64 + n of a tile of 64 atoms with 64 neighbours each, flattened. -/
def rowOf (r n : Fin 64) : Fin 4096 := ⟨r.val * 64 + n.val, by omega⟩

/-! ## One atom -/

/-- The first filter layer after its activation, for neighbour n and filter f. -/
def f1A (fijA : Fin 64 → Fin 50 → EReal) (fw1 : Fin 128 → Fin 50 → EReal) (fb1 : Fin 128 → EReal)
    (n : Fin 64) (f : Fin 128) : EReal :=
  ssp ((∑ s : Fin 50, fijA n s * fw1 f s) + fb1 f)

/-- The filter: the second filter layer. -/
def wA (fijA : Fin 64 → Fin 50 → EReal) (fw1 : Fin 128 → Fin 50 → EReal) (fb1 : Fin 128 → EReal)
    (fw2 : Fin 128 → Fin 128 → EReal) (fb2 : Fin 128 → EReal) (n : Fin 64) (g : Fin 128) : EReal :=
  (∑ f : Fin 128, f1A fijA fw1 fb1 n f * fw2 g f) + fb2 g

/-- The cutoff times the neighbour mask. -/
def scaleA (rijA maskA : Fin 64 → EReal) (n : Fin 64) : EReal := cutoff (rijA n) * maskA n

/-- The continuous-filter convolution: the filtered neighbour features summed over the neighbours. -/
def aggA (ytab : Fin 1024 → Fin 128 → EReal) (rijA : Fin 64 → EReal) (nbrA : Fin 64 → BitVec 32) (maskA : Fin 64 → EReal)
    (fijA : Fin 64 → Fin 50 → EReal) (fw1 : Fin 128 → Fin 50 → EReal) (fb1 : Fin 128 → EReal)
    (fw2 : Fin 128 → Fin 128 → EReal) (fb2 : Fin 128 → EReal) (f : Fin 128) : EReal :=
  ∑ n : Fin 64, ytab (nbrRow (nbrA n)) f * (wA fijA fw1 fb1 fw2 fb2 n f * scaleA rijA maskA n)

/-- The two output layers over an aggregated row. -/
def headA (agg : Fin 128 → EReal) (f2w : Fin 128 → Fin 128 → EReal) (f2b : Fin 128 → EReal)
    (dw : Fin 128 → Fin 128 → EReal) (db : Fin 128 → EReal) (p : Fin 128) : EReal :=
  (∑ o : Fin 128, ssp ((∑ f : Fin 128, agg f * f2w o f) + f2b o) * dw p o) + db p

/-- One atom's output row. -/
def outA (ytab : Fin 1024 → Fin 128 → EReal) (rijA : Fin 64 → EReal) (nbrA : Fin 64 → BitVec 32) (maskA : Fin 64 → EReal)
    (fijA : Fin 64 → Fin 50 → EReal) (fw1 : Fin 128 → Fin 50 → EReal) (fb1 : Fin 128 → EReal)
    (fw2 : Fin 128 → Fin 128 → EReal) (fb2 : Fin 128 → EReal) (f2w : Fin 128 → Fin 128 → EReal) (f2b : Fin 128 → EReal)
    (dw : Fin 128 → Fin 128 → EReal) (db : Fin 128 → EReal) (p : Fin 128) : EReal :=
  headA (aggA ytab rijA nbrA maskA fijA fw1 fb1 fw2 fb2) f2w f2b dw db p

/-! ## The arrays -/

abbrev SX : Shape := ⟨3, ![8, 1024, 128]⟩
abbrev SR : Shape := ⟨3, ![8, 1024, 64]⟩
abbrev SF : Shape := ⟨4, ![8, 1024, 64, 50]⟩
abbrev SW : Shape := ⟨2, ![128, 128]⟩
abbrev SW1 : Shape := ⟨2, ![128, 50]⟩
abbrev SB : Shape := ⟨1, ![128]⟩

/-- The atom features through the bias-free dense layer: y = x · in2f_wᵀ, as an array. -/
def yArr (x : SX.Idx → EReal) (w : SW.Idx → EReal) : SX.Idx → EReal :=
  fun i => ∑ d : Fin 128, x (ix3 (i 0) (i 1) d) * w (ix2 (i 2) d)

/-- The fused second stage on whole arrays: from the feature table and the per-pair inputs to the result. -/
def G1 (ytab : SX.Idx → EReal) (rij : SR.Idx → EReal) (nbr : SR.Idx → BitVec 32) (mask : SR.Idx → EReal) (fij : SF.Idx → EReal)
    (fw1 : SW1.Idx → EReal) (fb1 : Fin 128 → EReal) (fw2 : SW.Idx → EReal) (fb2 : Fin 128 → EReal)
    (f2w : SW.Idx → EReal) (f2b : Fin 128 → EReal) (dw : SW.Idx → EReal) (db : Fin 128 → EReal) : SX.Idx → EReal :=
  fun i => outA (fun a' f => ytab (ix3 (i 0) a' f)) (fun n => rij (ix3 (i 0) (i 1) n)) (fun n => nbr (ix3 (i 0) (i 1) n))
    (fun n => mask (ix3 (i 0) (i 1) n)) (fun n s => fij (ix4 (i 0) (i 1) n s)) (fun f s => fw1 (ix2 f s)) fb1
    (fun g f => fw2 (ix2 g f)) fb2 (fun o f => f2w (ix2 o f)) f2b (fun p o => dw (ix2 p o)) db (i 2)

/-- THE RESULT as one function of the fourteen argument arrays, in the programs' argument order:
    x, r_ij, neighbors, neighbor_mask, f_ij, in2f_w, fw1, fb1, fw2, fb2, f2out_w, f2out_b, dense_w, dense_b. -/
def G (x0 : SX.Idx → EReal) (x1 : SR.Idx → EReal) (x2 : SR.Idx → BitVec 32) (x3 : SR.Idx → EReal) (x4 : SF.Idx → EReal)
    (x5 : SW.Idx → EReal) (x6 : SW1.Idx → EReal) (x7 : SB.Idx → EReal) (x8 : SW.Idx → EReal) (x9 : SB.Idx → EReal)
    (x10 : SW.Idx → EReal) (x11 : SB.Idx → EReal) (x12 : SW.Idx → EReal) (x13 : SB.Idx → EReal) : SX.Idx → EReal :=
  G1 (yArr x0 x5) x1 x2 x3 x4 x6 (fun f => x7 (ix1 f)) x8 (fun f => x9 (ix1 f)) x10 (fun f => x11 (ix1 f)) x12 (fun f => x13 (ix1 f))

/-- The result reads the neighbour words only through their clamped rows. -/
theorem G1_congr_nbr (ytab : SX.Idx → EReal) (rij : SR.Idx → EReal) (nbr nbr' : SR.Idx → BitVec 32) (mask : SR.Idx → EReal) (fij : SF.Idx → EReal)
    (fw1 : SW1.Idx → EReal) (fb1 : Fin 128 → EReal) (fw2 : SW.Idx → EReal) (fb2 : Fin 128 → EReal)
    (f2w : SW.Idx → EReal) (f2b : Fin 128 → EReal) (dw : SW.Idx → EReal) (db : Fin 128 → EReal)
    (h : ∀ j, nbrRow (nbr j) = nbrRow (nbr' j)) :
    G1 ytab rij nbr mask fij fw1 fb1 fw2 fb2 f2w f2b dw db = G1 ytab rij nbr' mask fij fw1 fb1 fw2 fb2 f2w f2b dw db := by
  funext i
  unfold G1 outA aggA
  simp only [h]

/-! ## Facts about the scalars that both sides use -/

theorem z0_eq : z0 = 0 := Ideal.ofBits_zero_f32

/-- The reference's form of the shifted softplus (an unordered "not equal" for the guard, a negation where the kernel
    subtracts from zero) is the same function. -/
theorem ssp_ref (z : EReal) :
    Scalar.select (Ideal.cmp .une (z - z0) (z - z0)) (z + z0)
      (max z z0 + Ideal.log1p (Ideal.exp (-(max (z - z0) (-(z - z0)))))) - l2 = ssp z := by
  unfold ssp
  have h : z0 - max (z - z0) (-(z - z0)) = -(max (z - z0) (-(z - z0))) := by
    rw [z0_eq, sub_eq_add_neg, zero_add]
  rw [h]
  rfl

/-- Five and the two spellings of π/5: the single-precision π over five IS the kernel's folded word. -/
theorem five_eq : five = ((5 : ℝ) : EReal) := by
  simp [Ideal.ofBits, Ideal.ieee, -EReal.coe_mul]; norm_num
theorem piF_eq : piF = ((13176795 / 4194304 : ℝ) : EReal) := by
  simp [Ideal.ofBits, Ideal.ieee, -EReal.coe_mul]; norm_num
theorem cK_eq : cK = ((2635359 / 4194304 : ℝ) : EReal) := by
  simp [Ideal.ofBits, Ideal.ieee, -EReal.coe_mul]; norm_num

/-- The reference's r · π / 5 is the kernel's r · (π/5), for every extended real r. -/
theorem angle_eq (r : EReal) : Ideal.div (r * piF) five = r * cK := by
  rw [five_eq, Ideal.div_coe (by norm_num : (5 : ℝ) ≠ 0), mul_assoc, piF_eq, cK_eq, ← EReal.coe_mul]
  congr 2
  norm_num

/-- A one-bit condition read unsigned is the same number as its 32-bit widening read signed. -/
theorem bit_eq_toNat (c : BitVec 1) : (((c.toNat : ℕ) : ℝ) : EReal) = bit c := by
  unfold bit
  have h : c = 0#1 ∨ c = 1#1 := by
    rcases c with ⟨⟨v, hv⟩⟩
    have : v = 0 ∨ v = 1 := by omega
    rcases this with rfl | rfl
    · left; rfl
    · right; rfl
  rcases h with rfl | rfl <;> simp

end Cert.Bridge

end
-- ==== Proof.Clip.lean ====
/-
  The kernel's host-side clamp of the neighbour words, max(0, ·) then min(1023, ·) on signed 32-bit words:
  the clamped word lies in [0, 1023], and clamping first does not change the row a word is clamped to.
-/
import proofs.«420945_j16234976379044_3_alg».proof.Proof.Spec

namespace Cert.Bridge

open Idealize.ShloMosaic

/-- The clamped word read as a signed integer: the integer clamp of the word's signed value. -/
theorem toInt_clip (n : BitVec 32) :
    (IntOp.minsi 1023#32 (IntOp.maxsi 0#32 n)).toInt = min 1023 (max 0 n.toInt) := by
  have h0 : (0#32 : BitVec 32).toInt = 0 := by decide
  have h1 : (1023#32 : BitVec 32).toInt = 1023 := by decide
  unfold IntOp.minsi IntOp.maxsi
  by_cases hn : n.slt 0#32
  · have hn' : n.toInt < 0 := by
      rw [BitVec.slt_eq_decide, decide_eq_true_eq, h0] at hn
      exact hn
    rw [if_pos hn]
    have hs : (1023#32 : BitVec 32).slt 0#32 = false := by decide
    rw [hs]
    simp only [Bool.false_eq_true, if_false]
    rw [h0]
    omega
  · have hn' : 0 ≤ n.toInt := by
      rw [BitVec.slt_eq_decide, decide_eq_true_eq, h0] at hn
      omega
    rw [if_neg hn]
    by_cases hk : (1023#32 : BitVec 32).slt n
    · have hk' : 1023 < n.toInt := by
        rw [BitVec.slt_eq_decide, decide_eq_true_eq, h1] at hk
        exact hk
      rw [if_pos hk, h1]
      omega
    · have hk' : n.toInt ≤ 1023 := by
        rw [BitVec.slt_eq_decide, decide_eq_true_eq, h1] at hk
        omega
      rw [if_neg hk]
      omega

/-- Clamping a word into [0, 1023] first does not change its clamped row. -/
theorem nbrRow_clip (n : BitVec 32) : nbrRow (IntOp.minsi 1023#32 (IntOp.maxsi 0#32 n)) = nbrRow n := by
  unfold nbrRow
  apply Fin.ext
  show min (IntOp.minsi 1023#32 (IntOp.maxsi 0#32 n)).toInt.toNat 1023 = min n.toInt.toNat 1023
  rw [toInt_clip]
  omega

/-- A clamped word lies in [0, 1023]. -/
theorem clip_range (n : BitVec 32) :
    0 ≤ (IntOp.minsi 1023#32 (IntOp.maxsi 0#32 n)).toInt ∧ (IntOp.minsi 1023#32 (IntOp.maxsi 0#32 n)).toInt < 1024 := by
  rw [toInt_clip]
  omega

end Cert.Bridge
-- ==== Proof.KHost.lean ====
/-
  What the second pallas_call finds in its operand arrays: the feature table the first call left, the clamped neighbour
  words, the four biases as [1,128] rows, and every other operand as launched. The host operations before the calls
  (the clamp and four reshapes) are read through the fold of buffer contents from the launch memory.
-/
import proofs.«420945_j16234976379044_3_alg».proof.Proof.Gen.KernelIdeal.Frame
import proofs.«420945_j16234976379044_3_alg».proof.Proof.Spec
import proofs.«420945_j16234976379044_3_alg».proof.Proof.Clip
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.Bridge

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-! ## Buffers no host operation writes -/

/-- The two constants' stretch leaves every buffer but the two constants' as launched. -/
theorem W1_of_not_written (c : Dev nD) (b : Ref sig .tc) (hb : b ∉ [main_c, main_c_0]) :
    W1 m ρ c (Proc.devRef .tc b) = m ((c : Thread nD τ).loc b) := by
  simp only [List.mem_cons, List.mem_nil_iff, or_false, not_or] at hb
  obtain ⟨h1, h2⟩ := hb
  refine (StableHlo.after_of_forall_not_mem (b := Proc.devRef .tc b) _ _ (List.forall_iff_forall_mem.mp ?_)).trans rfl
  simp only [hostOps0, List.Forall, StableHlo.nullary_writes, Finset.mem_singleton]
  exact ⟨StableHlo.devRef_ne_of_ne h1, StableHlo.devRef_ne_of_ne h2⟩

/-- The clamp's stretch writes only its five intermediate buffers and the clamped words. -/
theorem W2_of_not_written (c : Dev nD) (b : Ref sig .tc)
    (hb : b ∉ [main_call0_v0, main_call0_v1, main_call0_v2, main_call0_v3, main_call0_v4, main_v0]) :
    W2 m ρ c (Proc.devRef .tc b) = W1 m ρ c (Proc.devRef .tc b) := by
  simp only [List.mem_cons, List.mem_nil_iff, or_false, not_or] at hb
  obtain ⟨h1, h2, h3, h4, h5, h6⟩ := hb
  refine StableHlo.after_of_forall_not_mem (b := Proc.devRef .tc b) _ _ (List.forall_iff_forall_mem.mp ?_)
  simp only [hostOps0_1, List.Forall, StableHlo.unary_writes, StableHlo.binary_writes, Finset.mem_singleton]
  exact ⟨StableHlo.devRef_ne_of_ne h1, StableHlo.devRef_ne_of_ne h2, StableHlo.devRef_ne_of_ne h3,
    StableHlo.devRef_ne_of_ne h4, StableHlo.devRef_ne_of_ne h5, StableHlo.devRef_ne_of_ne h6⟩

/-- The reshapes' stretch writes only the four bias rows. -/
theorem W3_of_not_written (c : Dev nD) (b : Ref sig .tc) (hb : b ∉ [main_v1, main_v2, main_v3, main_v4]) :
    W3 m ρ c (Proc.devRef .tc b) = W2 m ρ c (Proc.devRef .tc b) := by
  simp only [List.mem_cons, List.mem_nil_iff, or_false, not_or] at hb
  obtain ⟨h1, h2, h3, h4⟩ := hb
  refine StableHlo.after_of_forall_not_mem (b := Proc.devRef .tc b) _ _ (List.forall_iff_forall_mem.mp ?_)
  simp only [hostOps0_2, List.Forall, StableHlo.reshape_writes, Finset.mem_singleton]
  exact ⟨StableHlo.devRef_ne_of_ne h1, StableHlo.devRef_ne_of_ne h2, StableHlo.devRef_ne_of_ne h3,
    StableHlo.devRef_ne_of_ne h4⟩

/-- A buffer none of the twelve host operations writes holds at the first call's entry what was launched. -/
theorem W3_launched (c : Dev nD) (b : Ref sig .tc)
    (hb : b ∉ [main_c, main_c_0, main_call0_v0, main_call0_v1, main_call0_v2, main_call0_v3, main_call0_v4, main_v0,
      main_v1, main_v2, main_v3, main_v4]) :
    W3 m ρ c (Proc.devRef .tc b) = m ((c : Thread nD τ).loc b) := by
  simp only [List.mem_cons, List.mem_nil_iff, or_false, not_or] at hb
  obtain ⟨h1, h2, h3, h4, h5, h6, h7, h8, h9, h10, h11, h12⟩ := hb
  rw [W3_of_not_written m ρ c b (by simp only [List.mem_cons, List.mem_nil_iff, or_false, not_or]; exact ⟨h9, h10, h11, h12⟩),
    W2_of_not_written m ρ c b (by simp only [List.mem_cons, List.mem_nil_iff, or_false, not_or]; exact ⟨h3, h4, h5, h6, h7, h8⟩),
    W1_of_not_written m ρ c b (by simp only [List.mem_cons, List.mem_nil_iff, or_false, not_or]; exact ⟨h1, h2⟩)]

/-- A buffer neither the constants' nor the clamp's stretch writes holds before the reshapes what was launched. -/
theorem W2_launched (c : Dev nD) (b : Ref sig .tc)
    (hb : b ∉ [main_c, main_c_0, main_call0_v0, main_call0_v1, main_call0_v2, main_call0_v3, main_call0_v4, main_v0]) :
    W2 m ρ c (Proc.devRef .tc b) = m ((c : Thread nD τ).loc b) := by
  simp only [List.mem_cons, List.mem_nil_iff, or_false, not_or] at hb
  obtain ⟨h1, h2, h3, h4, h5, h6, h7, h8⟩ := hb
  rw [W2_of_not_written m ρ c b (by simp only [List.mem_cons, List.mem_nil_iff, or_false, not_or]; exact ⟨h3, h4, h5, h6, h7, h8⟩),
    W1_of_not_written m ρ c b (by simp only [List.mem_cons, List.mem_nil_iff, or_false, not_or]; exact ⟨h1, h2⟩)]

/-- The first call's operands are as launched. -/
theorem V3_main_arg0 (c : Dev nD) : V3 m ρ c main_arg0 = m ((c : Thread nD τ).loc main_arg0) :=
  W3_launched m ρ c main_arg0 (by decide)
theorem V3_main_arg5 (c : Dev nD) : V3 m ρ c main_arg5 = m ((c : Thread nD τ).loc main_arg5) :=
  W3_launched m ρ c main_arg5 (by decide)

/-- The feature table the second call reads is what the first call's pipeline leaves. -/
theorem V4_main_v5 (c : Dev nD) : V4 m ρ c main_v5 = (dat0 (V3 m ρ) c).arrAt 2 cfg0.N :=
  W4_arr m ρ c 2

/-- A buffer that is neither one of the first call's arrays nor written by a host operation is, at the second
    call's entry, as launched. -/
theorem V4_launched (c : Dev nD) (b : Ref sig .tc) (hw : ∀ w, Pipeline.arrRef spec0 w ≠ b)
    (hb : b ∉ [main_c, main_c_0, main_call0_v0, main_call0_v1, main_call0_v2, main_call0_v3, main_call0_v4, main_v0,
      main_v1, main_v2, main_v3, main_v4]) :
    V4 m ρ c b = m ((c : Thread nD τ).loc b) :=
  (W4_of_ne m ρ c b hw).trans (W3_launched m ρ c b hb)

/-- The second call's argument operands are as launched. -/
theorem V4_main_arg1 (c : Dev nD) : V4 m ρ c main_arg1 = m ((c : Thread nD τ).loc main_arg1) :=
  V4_launched m ρ c main_arg1 (by decide) (by decide)
theorem V4_main_arg3 (c : Dev nD) : V4 m ρ c main_arg3 = m ((c : Thread nD τ).loc main_arg3) :=
  V4_launched m ρ c main_arg3 (by decide) (by decide)
theorem V4_main_arg4 (c : Dev nD) : V4 m ρ c main_arg4 = m ((c : Thread nD τ).loc main_arg4) :=
  V4_launched m ρ c main_arg4 (by decide) (by decide)
theorem V4_main_arg6 (c : Dev nD) : V4 m ρ c main_arg6 = m ((c : Thread nD τ).loc main_arg6) :=
  V4_launched m ρ c main_arg6 (by decide) (by decide)
theorem V4_main_arg8 (c : Dev nD) : V4 m ρ c main_arg8 = m ((c : Thread nD τ).loc main_arg8) :=
  V4_launched m ρ c main_arg8 (by decide) (by decide)
theorem V4_main_arg10 (c : Dev nD) : V4 m ρ c main_arg10 = m ((c : Thread nD τ).loc main_arg10) :=
  V4_launched m ρ c main_arg10 (by decide) (by decide)
theorem V4_main_arg12 (c : Dev nD) : V4 m ρ c main_arg12 = m ((c : Thread nD τ).loc main_arg12) :=
  V4_launched m ρ c main_arg12 (by decide) (by decide)

/-! ## The clamped neighbour words -/

/-- The neighbour words the second call reads are the launched ones clamped into [0, 1023]. -/
theorem V4_main_v0 (c : Dev nD) :
    V4 m ρ c main_v0 = fun j => IntOp.minsi 1023#32 (IntOp.maxsi 0#32 (m ((c : Thread nD τ).loc main_arg2) j)) := by
  refine (W4_of_ne m ρ c main_v0 (by decide)).trans ?_
  refine (W3_of_not_written m ρ c main_v0 (by decide)).trans ?_
  show StableHlo.after hostOps0_1 (W1 m ρ c) (Proc.devRef .tc main_v0) = _
  simp only [hostOps0_1]
  after_results
  rfl

/-! ## The biases as rows -/

/-- A [128] vector reshaped to a [1,128] row holds at (0, f) the vector's entry f. -/
theorem row_of_vector_apply {α : Type} (v : S128.Idx → α) (h : S128.ShapeCasts S1x128) (f : Fin 128) :
    shapeCast S1x128 v h (ix2 0 f) = v (ix1 f) := by
  refine (shapeCast_addUnit_apply ![128] v h (ix2 0 f)).trans (congrArg v ?_)
  funext a
  match a with
  | ⟨0, _⟩ => rfl

/-- The reshapes' stretch leaves in main_v1 the [128] vector of main_arg7 as a [1,128] row, whatever the contents before it. -/
theorem reshapes_main_v1 (X : Valuation τ sig (Elt Ideal)) :
    (StableHlo.after hostOps0_2 X (Proc.devRef .tc main_v1) : S1x128.Idx → EReal)
      = shapeCast S1x128 (X (Proc.devRef .tc main_arg7) : S128.Idx → EReal) shapeCasts_S128_S1x128 := by
  simp only [hostOps0_2]
  after_results
  rfl

/-- The reshapes' stretch leaves in main_v2 the [128] vector of main_arg9 as a [1,128] row, whatever the contents before it. -/
theorem reshapes_main_v2 (X : Valuation τ sig (Elt Ideal)) :
    (StableHlo.after hostOps0_2 X (Proc.devRef .tc main_v2) : S1x128.Idx → EReal)
      = shapeCast S1x128 (X (Proc.devRef .tc main_arg9) : S128.Idx → EReal) shapeCasts_S128_S1x128 := by
  simp only [hostOps0_2]
  after_results
  rfl

/-- The reshapes' stretch leaves in main_v3 the [128] vector of main_arg11 as a [1,128] row, whatever the contents before it. -/
theorem reshapes_main_v3 (X : Valuation τ sig (Elt Ideal)) :
    (StableHlo.after hostOps0_2 X (Proc.devRef .tc main_v3) : S1x128.Idx → EReal)
      = shapeCast S1x128 (X (Proc.devRef .tc main_arg11) : S128.Idx → EReal) shapeCasts_S128_S1x128 := by
  simp only [hostOps0_2]
  after_results
  rfl

/-- The reshapes' stretch leaves in main_v4 the [128] vector of main_arg13 as a [1,128] row, whatever the contents before it. -/
theorem reshapes_main_v4 (X : Valuation τ sig (Elt Ideal)) :
    (StableHlo.after hostOps0_2 X (Proc.devRef .tc main_v4) : S1x128.Idx → EReal)
      = shapeCast S1x128 (X (Proc.devRef .tc main_arg13) : S128.Idx → EReal) shapeCasts_S128_S1x128 := by
  simp only [hostOps0_2]
  after_results
  rfl

/-- The biases as [1,128] rows hold the launched [128] vectors. -/
theorem V4_main_v1 (c : Dev nD) (f : Fin 128) : V4 m ρ c main_v1 (ix2 0 f) = m ((c : Thread nD τ).loc main_arg7) (ix1 f) :=
  calc V4 m ρ c main_v1 (ix2 0 f)
    _ = W3 m ρ c (Proc.devRef .tc main_v1) (ix2 0 f) := congrFun (W4_of_ne m ρ c main_v1 (by decide)) (ix2 0 f)
    _ = shapeCast S1x128 (W2 m ρ c (Proc.devRef .tc main_arg7) : S128.Idx → EReal) shapeCasts_S128_S1x128 (ix2 0 f) :=
        congrFun (reshapes_main_v1 (W2 m ρ c)) (ix2 0 f)
    _ = W2 m ρ c (Proc.devRef .tc main_arg7) (ix1 f) := row_of_vector_apply _ _ f
    _ = m ((c : Thread nD τ).loc main_arg7) (ix1 f) := congrFun (W2_launched m ρ c main_arg7 (by decide)) (ix1 f)
theorem V4_main_v2 (c : Dev nD) (f : Fin 128) : V4 m ρ c main_v2 (ix2 0 f) = m ((c : Thread nD τ).loc main_arg9) (ix1 f) :=
  calc V4 m ρ c main_v2 (ix2 0 f)
    _ = W3 m ρ c (Proc.devRef .tc main_v2) (ix2 0 f) := congrFun (W4_of_ne m ρ c main_v2 (by decide)) (ix2 0 f)
    _ = shapeCast S1x128 (W2 m ρ c (Proc.devRef .tc main_arg9) : S128.Idx → EReal) shapeCasts_S128_S1x128 (ix2 0 f) :=
        congrFun (reshapes_main_v2 (W2 m ρ c)) (ix2 0 f)
    _ = W2 m ρ c (Proc.devRef .tc main_arg9) (ix1 f) := row_of_vector_apply _ _ f
    _ = m ((c : Thread nD τ).loc main_arg9) (ix1 f) := congrFun (W2_launched m ρ c main_arg9 (by decide)) (ix1 f)
theorem V4_main_v3 (c : Dev nD) (f : Fin 128) : V4 m ρ c main_v3 (ix2 0 f) = m ((c : Thread nD τ).loc main_arg11) (ix1 f) :=
  calc V4 m ρ c main_v3 (ix2 0 f)
    _ = W3 m ρ c (Proc.devRef .tc main_v3) (ix2 0 f) := congrFun (W4_of_ne m ρ c main_v3 (by decide)) (ix2 0 f)
    _ = shapeCast S1x128 (W2 m ρ c (Proc.devRef .tc main_arg11) : S128.Idx → EReal) shapeCasts_S128_S1x128 (ix2 0 f) :=
        congrFun (reshapes_main_v3 (W2 m ρ c)) (ix2 0 f)
    _ = W2 m ρ c (Proc.devRef .tc main_arg11) (ix1 f) := row_of_vector_apply _ _ f
    _ = m ((c : Thread nD τ).loc main_arg11) (ix1 f) := congrFun (W2_launched m ρ c main_arg11 (by decide)) (ix1 f)
theorem V4_main_v4 (c : Dev nD) (f : Fin 128) : V4 m ρ c main_v4 (ix2 0 f) = m ((c : Thread nD τ).loc main_arg13) (ix1 f) :=
  calc V4 m ρ c main_v4 (ix2 0 f)
    _ = W3 m ρ c (Proc.devRef .tc main_v4) (ix2 0 f) := congrFun (W4_of_ne m ρ c main_v4 (by decide)) (ix2 0 f)
    _ = shapeCast S1x128 (W2 m ρ c (Proc.devRef .tc main_arg13) : S128.Idx → EReal) shapeCasts_S128_S1x128 (ix2 0 f) :=
        congrFun (reshapes_main_v4 (W2 m ρ c)) (ix2 0 f)
    _ = W2 m ρ c (Proc.devRef .tc main_arg13) (ix1 f) := row_of_vector_apply _ _ f
    _ = m ((c : Thread nD τ).loc main_arg13) (ix1 f) := congrFun (W2_launched m ρ c main_arg13 (by decide)) (ix1 f)

end Cert.Bridge

end
-- ==== Proof.KReg0.lean ====
/-
  The first pallas_call as a function of whole arrays: over its grid of eight batches, each point multiplies its batch's
  [1024,128] block of x with the transposed weight, so the array it leaves is y = x · in2f_wᵀ, whatever contents the
  region is entered with.
-/
import proofs.«420945_j16234976379044_3_alg».proof.Proof.Gen.KernelIdeal.Frame
import proofs.«420945_j16234976379044_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.Bridge

open Idealize.ShloMosaic Idealize.ShloMosaic.ValueIdx Idealize.ShloMosaic.TcCoe Idealize.SL.Sem Cert.KernelIdeal Cert.KernelIdeal.Gen

/-- The matmul's left operand is read at the output's row … -/
theorem reg0_matmul_lhs_row (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … and the contracted column; -/
theorem reg0_matmul_lhs_col (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- the right operand at the contracted row … -/
theorem reg0_matmul_rhs_row (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- … and the output's column. -/
theorem reg0_matmul_rhs_col (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A [1024,128] by [128,128] product into the zero accumulator, read at (a, f): the sum over the contracted axis. -/
theorem reg0_matmul_apply_at (l : FVec Ideal S1024x128 .bf16) (r : FVec Ideal S128x128 .bf16) (a : Fin 1024) (f : Fin 128) :
    FloatOps.matmul dot_S1024x128_S128x128_S1024x128_1_0_0_1_n_n none l r (constant (F := Ideal) S1024x128 .f32 0x00000000#32) (ix2 a f)
      = ∑ d : Fin 128, l (ix2 a d) * r (ix2 d f) := by
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 a f) ((contrEquiv1 dot_S1024x128_S128x128_S1024x128_1_0_0_1_n_n 128 rfl rfl).symm k) = ix2 a k := funext fun b => Fin.ext (by
    match b with
    | ⟨0, _⟩ => exact reg0_matmul_lhs_row _ _
    | ⟨1, _⟩ => exact (reg0_matmul_lhs_col _ _).trans hk)
  have er : dot_S1024x128_S128x128_S1024x128_1_0_0_1_n_n.rhsIdx (ix2 a f) ((contrEquiv1 dot_S1024x128_S128x128_S1024x128_1_0_0_1_n_n 128 rfl rfl).symm k) = ix2 k f := funext fun b => Fin.ext (by
    match b with
    | ⟨0, _⟩ => exact (reg0_matmul_rhs_row _ _).trans hk
    | ⟨1, _⟩ => exact reg0_matmul_rhs_col _ _)
  rw [el, er]

/-- The transposed weight at (d, f) is the weight at (f, d). -/
theorem reg0_transpose_weight_apply (w : S128x128.Idx → EReal) (d f : Fin 128) :
    transpose S128x128 [1, 0] w transposes_S128x128_p1_0_S128x128 (ix2 d f) = w (ix2 f d) :=
  transpose_apply [1, 0] w transposes_S128x128_p1_0_S128x128 (ix2 d f) (ix2 f d) (fun b => by
    match b with
    | ⟨0, _⟩ => rfl
    | ⟨1, _⟩ => rfl)

/-- A [1024,128] value stored as a [1,1024,128] block reads (a, f) at (0, a, f). -/
theorem reg0_addUnit_apply (v : S1024x128.Idx → EReal) (z : Fin 1) (a : Fin 1024) (f : Fin 128) :
    shapeCast S1x1024x128 v shapeCasts_S1024x128_S1x1024x128 (ix3 z a f) = v (ix2 a f) :=
  (shapeCast_addUnit_apply ![1024, 128] v shapeCasts_S1024x128_S1x1024x128 (ix3 z a f)).trans
    (congrArg v (funext fun b => by match b with | ⟨0, _⟩ => rfl | ⟨1, _⟩ => rfl))

/-- A [1,1024,128] block viewed as [1024,128] reads (0, a, d) at (a, d). -/
theorem reg0_dropUnit_apply (v : S1x1024x128.Idx → EReal) (z : Fin 1) (a : Fin 1024) (d : Fin 128) :
    shapeCast S1024x128 v shapeCasts_S1x1024x128_S1024x128 (ix2 a d) = v (ix3 z a d) :=
  (shapeCast_dropUnit_apply ![1024, 128] v shapeCasts_S1x1024x128_S1024x128 (ix2 a d)).trans
    (congrArg v (funext fun b => Fin.ext (by
      match b with
      | ⟨0, _⟩ => show 0 = z.val; omega
      | ⟨1, _⟩ => rfl
      | ⟨2, _⟩ => rfl)))

/-- The body's stored value at (0, a, f): row a of the block against row f of the weight. -/
theorem reg0_pay_apply (x0 : Vec Ideal S1x1024x128 .f32) (x1 : Vec Ideal S128x128 .f32) (z : Fin 1) (a : Fin 1024) (f : Fin 128) :
    k0_pay1 (F := Ideal) x0 x1 (ix3 z a f) = ∑ d : Fin 128, x0 (ix3 z a d) * x1 (ix2 f d) := by
  unfold k0_pay1
  refine (reg0_addUnit_apply _ z a f).trans ?_
  refine (reg0_matmul_apply_at (truncf .bf16 (shapeCast S1024x128 x0 shapeCasts_S1x1024x128_S1024x128) bitsLt_bf16_f32)
      (transpose S128x128 [1, 0] (truncf .bf16 x1 bitsLt_bf16_f32) transposes_S128x128_p1_0_S128x128) a f).trans ?_
  refine Finset.sum_congr rfl fun d _ => ?_
  exact congrArg₂ (· * ·) (reg0_dropUnit_apply x0 z a d) (reg0_transpose_weight_apply x1 d f)

theorem reg0_zeros3 : (![0, 0, 0] : Fin 3 → Nat) = fun _ => 0 := funext fun a => by fin_cases a <;> rfl
theorem reg0_zeros2 : (![0, 0] : Fin 2 → Nat) = fun _ => 0 := funext fun a => by fin_cases a <;> rfl

/-- The index maps over the grid: the x block and the output block of point t are block (t, 0, 0), the weight's block (0, 0). -/
theorem reg0_index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The x block of point t at (z, a, d) is the array at (t + z, a, d). -/
theorem reg0_xblock_apply (V : (c : Dev nD) → (b : Ref sig .tc) → Buf (Elt Ideal) ((c : Thread nD τ).loc b)) (c : Dev nD) (t : Fin cfg0.N)
    (z : Fin 1) (a : Fin 1024) (d : Fin 128) (b : Fin 8) (hb : b.val = t.val + z.val) :
    (iblk0 V c 0 t : Vec Ideal S1x1024x128 .f32) (ix3 z a d) = (V c main_arg0 : SX.Idx → EReal) (ix3 b a d) := by
  obtain ⟨e0, e1, e2, -⟩ := reg0_index_facts t
  show V c main_arg0 (((cfg0.win 0).blk t).view.emb (ix3 z a d)) = V c main_arg0 (ix3 b a d)
  congr 1
  funext x; apply Fin.ext
  match x with
  | ⟨0, _⟩ => show win0_0.index t (0 : Fin 3) * 1 + 1 * z.val = b.val; omega
  | ⟨1, _⟩ => show win0_0.index t (1 : Fin 3) * 1024 + 1 * a.val = a.val; omega
  | ⟨2, _⟩ => show win0_0.index t (2 : Fin 3) * 128 + 1 * d.val = d.val; omega

/-- The weight's block at every point is the whole weight. -/
theorem reg0_wblock_apply (V : (c : Dev nD) → (b : Ref sig .tc) → Buf (Elt Ideal) ((c : Thread nD τ).loc b)) (c : Dev nD) (t : Fin cfg0.N)
    (f d : Fin 128) :
    (iblk0 V c 1 t : Vec Ideal S128x128 .f32) (ix2 f d) = (V c main_arg5 : SW.Idx → EReal) (ix2 f d) := by
  obtain ⟨-, -, -, e0, e1, -⟩ := reg0_index_facts t
  show V c main_arg5 (((cfg0.win 1).blk t).view.emb (ix2 f d)) = V c main_arg5 (ix2 f d)
  congr 1
  funext x; apply Fin.ext
  match x with
  | ⟨0, _⟩ => show win0_1.index t (0 : Fin 2) * 128 + 1 * f.val = f.val; omega
  | ⟨1, _⟩ => show win0_1.index t (1 : Fin 2) * 128 + 1 * d.val = d.val; omega

/-- What point t writes back is block t of y = x · wᵀ of the arrays the region is entered with. -/
theorem reg0_flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (yArr (V c main_arg0) (V c main_arg5)) := by
  show (cfg0.win 2).cut (grid0.coords t) ((dat0 V c).after 2 t) = _
  rw [after0_2]
  unfold out0_2
  rw [View.canon_unit_zero reg0_zeros3]
  simp only [View.ld_unit_zero (S := S1x1024x128) reg0_zeros3, View.ld_unit_zero (S := S128x128) reg0_zeros2]
  funext j
  obtain ⟨-, -, -, -, -, e0, e1, e2⟩ := reg0_index_facts t
  have h0 : (j 0).val < 1 := (j 0).isLt
  have h1 : (j 1).val < 1024 := (j 1).isLt
  have h2 : (j 2).val < 128 := (j 2).isLt
  have ht : t.val < 8 := Nat.lt_of_lt_of_eq t.isLt N_0
  have hb : t.val + (j 0).val < 8 := by omega
  have hx : (win0 2).xinj (grid0.coords t) j = ix3 (⟨(j 0).val, h0⟩ : Fin 1) (⟨(j 1).val, h1⟩ : Fin 1024) (⟨(j 2).val, h2⟩ : Fin 128) :=
    funext fun x => by
      match x with
      | ⟨0, _⟩ => rfl
      | ⟨1, _⟩ => rfl
      | ⟨2, _⟩ => rfl
  have hi : ((cfg0.win 2).blk t).view.emb j = ix3 (⟨t.val + (j 0).val, hb⟩ : Fin 8) (⟨(j 1).val, h1⟩ : Fin 1024) (⟨(j 2).val, h2⟩ : Fin 128) :=
    funext fun x => Fin.ext (by
      match x with
      | ⟨0, _⟩ => show win0_2.index t (0 : Fin 3) * 1 + 1 * (j 0).val = t.val + (j 0).val; omega
      | ⟨1, _⟩ => show win0_2.index t (1 : Fin 3) * 1024 + 1 * (j 1).val = (j 1).val; omega
      | ⟨2, _⟩ => show win0_2.index t (2 : Fin 3) * 128 + 1 * (j 2).val = (j 2).val; omega)
  show k0_pay1 (F := Ideal) (iblk0 V c 0 t) (iblk0 V c 1 t) ((win0 2).xinj (grid0.coords t) j)
    = yArr (V c main_arg0) (V c main_arg5) (((cfg0.win 2).blk t).view.emb j)
  rw [hx, hi]
  refine (reg0_pay_apply (iblk0 V c 0 t) (iblk0 V c 1 t) _ _ _).trans ?_
  refine Finset.sum_congr rfl fun d _ => ?_
  exact congrArg₂ (· * ·) (reg0_xblock_apply V c t _ _ d _ rfl) (reg0_wblock_apply V c t _ d)

/-- Batch b of the array is the block of point b. -/
theorem reg0_value (V : (c : Dev nD) → (b : Ref sig .tc) → Buf (Elt Ideal) ((c : Thread nD τ).loc b)) (c : Dev nD) :
    (dat0 (F := Ideal) V c).arrAt 2 cfg0.N = yArr (V c main_arg0) (V c main_arg5) := by
  refine (dat0 (F := Ideal) V c).arrAt_eq_of_cover 2 (yArr (V c main_arg0) (V c main_arg5)) (fun t _ => reg0_flushed_eq V c t) fun i => ?_
  have hi0 : (i 0).val < 8 := (i 0).isLt
  have hi1 : (i 1).val < 1024 := (i 1).isLt
  have hi2 : (i 2).val < 128 := (i 2).isLt
  let t : Fin cfg0.N := ⟨(i 0).val, Nat.lt_of_lt_of_eq hi0 N_0.symm⟩
  obtain ⟨-, -, -, -, -, e0, e1, e2⟩ := reg0_index_facts t
  refine ⟨t, flush0_2 t, ?_⟩
  show i ∈ ((View.whole main_v5).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1
              have : t.val = (i 0).val := rfl
              omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

end Cert.Bridge

end
-- ==== Proof.KPayA.lean ====
/-
  The filter stage of the fused kernel read at one entry: for atom r of the tile, neighbour n and filter g, the
  flattened row r·64 + n of the (rows × filters) array holds the second filter layer's output times the cosine
  cutoff and the neighbour mask of the pair (r, n).
-/
import proofs.«420945_j16234976379044_3_alg».proof.Proof.Gen.KernelIdeal.Skeleton
import proofs.«420945_j16234976379044_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Gen

/-! ## The two filter layers' products read at an entry -/

theorem filter1_lhs_row (i : S4096x128.Idx) (q : dot_S4096x50_S50x128_S4096x128_1_0_0_1_n_n.contr.Idx) :
    (dot_S4096x50_S50x128_S4096x128_1_0_0_1_n_n.lhsIdx i q 0).val = (i 0).val := by
  unfold DotDims.lhsIdx
  rw [dif_neg (show ¬(0 : Fin S4096x50.rank) ∈ dot_S4096x50_S50x128_S4096x128_1_0_0_1_n_n.lhsBatch by decide), dif_pos (show (0 : Fin S4096x50.rank) ∈ dot_S4096x50_S50x128_S4096x128_1_0_0_1_n_n.lhsNonContracting by decide)]
  rfl
theorem filter1_lhs_contr (i : S4096x128.Idx) (q : dot_S4096x50_S50x128_S4096x128_1_0_0_1_n_n.contr.Idx) :
    (dot_S4096x50_S50x128_S4096x128_1_0_0_1_n_n.lhsIdx i q 1).val = (q ⟨0, by decide⟩).val :=
  dot_S4096x50_S50x128_S4096x128_1_0_0_1_n_n.lhsIdx_val_of_single rfl i q
theorem filter1_rhs_contr (i : S4096x128.Idx) (q : dot_S4096x50_S50x128_S4096x128_1_0_0_1_n_n.contr.Idx) :
    (dot_S4096x50_S50x128_S4096x128_1_0_0_1_n_n.rhsIdx i q 0).val = (q ⟨0, by decide⟩).val :=
  dot_S4096x50_S50x128_S4096x128_1_0_0_1_n_n.rhsIdx_val_of_single rfl i q
theorem filter1_rhs_col (i : S4096x128.Idx) (q : dot_S4096x50_S50x128_S4096x128_1_0_0_1_n_n.contr.Idx) :
    (dot_S4096x50_S50x128_S4096x128_1_0_0_1_n_n.rhsIdx i q 1).val = (i 1).val := by
  unfold DotDims.rhsIdx
  rw [dif_neg (show ¬(1 : Fin S50x128.rank) ∈ dot_S4096x50_S50x128_S4096x128_1_0_0_1_n_n.rhsBatch by decide), dif_pos (show (1 : Fin S50x128.rank) ∈ dot_S4096x50_S50x128_S4096x128_1_0_0_1_n_n.rhsNonContracting by decide)]
  rfl

/-- The first filter layer's product: entry (p, c) of [4096,50] · [50,128] is the sum over the 50 radial features. -/
theorem filter1_matmul_apply (x : FVec Ideal S4096x50 .bf16) (w : FVec Ideal S50x128 .bf16) (p : Fin 4096) (c : Fin 128) :
    matmul dot_S4096x50_S50x128_S4096x128_1_0_0_1_n_n none x w (constant (F := Ideal) S4096x128 .f32 0x00000000#32) (ix2 p c)
      = ∑ k : Fin 50, x (ix2 p k) * w (ix2 k c) := by
  simp only [matmul]
  rw [Ideal.matmul_constant_zero_apply, ← Equiv.sum_comp (contrEquiv1 dot_S4096x50_S50x128_S4096x128_1_0_0_1_n_n 50 rfl rfl).symm]
  refine Finset.sum_congr rfl fun k _ => ?_
  have hk := contrEquiv1_symm_val dot_S4096x50_S50x128_S4096x128_1_0_0_1_n_n 50 rfl rfl k
  have el : dot_S4096x50_S50x128_S4096x128_1_0_0_1_n_n.lhsIdx (ix2 p c) ((contrEquiv1 dot_S4096x50_S50x128_S4096x128_1_0_0_1_n_n 50 rfl rfl).symm k) = ix2 p k := funext fun a => Fin.ext (by
    match a with
    | ⟨0, _⟩ => exact filter1_lhs_row _ _
    | ⟨1, _⟩ => exact (filter1_lhs_contr _ _).trans hk)
  have er : dot_S4096x50_S50x128_S4096x128_1_0_0_1_n_n.rhsIdx (ix2 p c) ((contrEquiv1 dot_S4096x50_S50x128_S4096x128_1_0_0_1_n_n 50 rfl rfl).symm k) = ix2 k c := funext fun a => Fin.ext (by
    match a with
    | ⟨0, _⟩ => exact (filter1_rhs_contr _ _).trans hk
    | ⟨1, _⟩ => exact filter1_rhs_col _ _)
  rw [el, er]

theorem filter2_lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem filter2_lhs_contr (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem filter2_rhs_contr (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem filter2_rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The second filter layer's product: entry (p, c) of [4096,128] · [128,128] is the sum over the 128 filters. -/
theorem filter2_matmul_apply (x : FVec Ideal S4096x128 .bf16) (w : FVec Ideal S128x128 .bf16) (p : Fin 4096) (c : Fin 128) :
    matmul dot_S4096x128_S128x128_S4096x128_1_0_0_1_n_n none x w (constant (F := Ideal) S4096x128 .f32 0x00000000#32) (ix2 p c)
      = ∑ k : Fin 128, x (ix2 p k) * w (ix2 k c) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p c) ((contrEquiv1 dot_S4096x128_S128x128_S4096x128_1_0_0_1_n_n 128 rfl rfl).symm k) = ix2 p k := funext fun a => Fin.ext (by
    match a with
    | ⟨0, _⟩ => exact filter2_lhs_row _ _
    | ⟨1, _⟩ => exact (filter2_lhs_contr _ _).trans hk)
  have er : dot_S4096x128_S128x128_S4096x128_1_0_0_1_n_n.rhsIdx (ix2 p c) ((contrEquiv1 dot_S4096x128_S128x128_S4096x128_1_0_0_1_n_n 128 rfl rfl).symm k) = ix2 k c := funext fun a => Fin.ext (by
    match a with
    | ⟨0, _⟩ => exact (filter2_rhs_contr _ _).trans hk
    | ⟨1, _⟩ => exact filter2_rhs_col _ _)
  rw [el, er]

/-! ## The two reshapes between the flattened rows r·64 + n and the pairs (r, n) -/

/-- Rows regrouped into (atom, neighbour) pairs: entry (r, n, g) is row r·64 + n, column g. -/
theorem rows_to_pairs_apply {α : Type} (x : S4096x128.Idx → α) (r n : Fin 64) (g : Fin 128) :
    shapeCast S64x64x128 x shapeCasts_S4096x128_S64x64x128 (ix3 r n g) = x (ix2 (rowOf r n) g) :=
  shapeCast_apply x shapeCasts_S4096x128_S64x64x128 (ix3 r n g) (ix2 (rowOf r n) g) (by
    rw [Shape.rowMajor_val_three, Shape.rowMajor_val_two]
    show (r.val * 64 + n.val) * 128 + g.val = (r.val * 64 + n.val) * 128 + g.val
    rfl)

/-- Pairs flattened back into rows: row r·64 + n, column g is entry (r, n, g). -/
theorem pairs_to_rows_apply {α : Type} (y : S64x64x128.Idx → α) (r n : Fin 64) (g : Fin 128) :
    shapeCast S4096x128 y shapeCasts_S64x64x128_S4096x128 (ix2 (rowOf r n) g) = y (ix3 r n g) :=
  shapeCast_apply y shapeCasts_S64x64x128_S4096x128 (ix2 (rowOf r n) g) (ix3 r n g) (by
    rw [Shape.rowMajor_val_three, Shape.rowMajor_val_two]
    show (r.val * 64 + n.val) * 128 + g.val = (r.val * 64 + n.val) * 128 + g.val
    rfl)

/-- A per-pair number given a trailing unit axis and repeated along the filters reads, at (r, n, g), its value at (r, n). -/
theorem pair_scale_bcast_apply {α : Type} (c : S64x64.Idx → α) (r n : Fin 64) (g : Fin 128) :
    broadcastTo S64x64x128 (shapeCast S64x64x1 c shapeCasts_S64x64_S64x64x1) broadcasts_S64x64x1_S64x64x128 (ix3 r n g)
      = c (ix2 r n) := by
  refine (broadcastTo_apply _ broadcasts_S64x64x1_S64x64x128 (ix3 r n g) (ix3 r n (0 : Fin 1)) fun a => ?_).trans ?_
  · match a with
    | ⟨0, _⟩ => show r.val = if (64 : ℕ) = 1 then 0 else r.val; rw [if_neg (by decide)]
    | ⟨1, _⟩ => show n.val = if (64 : ℕ) = 1 then 0 else n.val; rw [if_neg (by decide)]
    | ⟨2, _⟩ => show 0 = if (1 : ℕ) = 1 then 0 else g.val; rw [if_pos rfl]
  · exact shapeCast_apply c shapeCasts_S64x64_S64x64x1 (ix3 r n (0 : Fin 1)) (ix2 r n) (by
      rw [Shape.rowMajor_val_three, Shape.rowMajor_val_two]
      show r.val * 64 + n.val = (r.val * 64 + n.val) * 1 + 0
      omega)

/-! ## The payload at an entry -/

theorem pay12_apply (v3 v7 : FVec Ideal S64x64 .f32) (v12 : FVec Ideal S1x128 .f32) (v13 : Vec Ideal S128x128 .f32)
    (v15 : FVec Ideal S1x128 .f32) (v23 : FVec Ideal S4096x50 .bf16) (v25 : FVec Ideal S50x128 .bf16)
    (r n : Fin 64) (g : Fin 128) :
    k1_pay12 (F := Ideal) v3 v7 v12 v13 v15 v23 v25 (ix2 (rowOf r n) g)
      = wA (fun n' s => v23 (ix2 (rowOf r n') s)) (fun f s => v25 (ix2 s f)) (fun f => v12 (ix2 0 f))
          (fun g' f => v13 (ix2 g' f)) (fun g' => v15 (ix2 0 g')) n g
        * scaleA (fun n' => v3 (ix2 r n')) (fun n' => v7 (ix2 r n')) n := by
  unfold k1_pay12
  refine (pairs_to_rows_apply _ r n g).trans ?_
  refine (mulf_apply _ _ _).trans ?_
  refine congrArg₂ (· * ·) ?_ ?_
  · -- the second filter layer at row r·64 + n, filter g
    refine (rows_to_pairs_apply _ r n g).trans ?_
    refine (addf_apply _ _ _).trans ?_
    unfold wA
    refine congrArg₂ (· + ·) ?_ (broadcastTo_1b_ab_apply v15 broadcasts_S1x128_S4096x128 (rowOf r n) g)
    refine (filter2_matmul_apply _ _ (rowOf r n) g).trans ?_
    refine Finset.sum_congr rfl fun f _ => ?_
    refine congrArg₂ (· * ·) ?_ ?_
    · -- the first filter layer through the shifted softplus at row r·64 + n, filter f
      unfold f1A
      show ssp (matmul dot_S4096x50_S50x128_S4096x128_1_0_0_1_n_n none v23 v25 (constant (F := Ideal) S4096x128 .f32 0x00000000#32) (ix2 (rowOf r n) f)
          + broadcastTo S4096x128 v12 broadcasts_S1x128_S4096x128 (ix2 (rowOf r n) f)) = _
      rw [filter1_matmul_apply, broadcastTo_1b_ab_apply]
    · exact transpose_ix2_apply _ transposes_S128x128_p1_0_S128x128 f g
  · -- the cutoff times the mask at the pair (r, n)
    refine (pair_scale_bcast_apply _ r n g).trans ?_
    rfl

end Cert.Bridge

end
-- ==== Proof.KPayB.lean ====
/-
  The gather-by-one-hot stage read at one entry: four one-hot matrix products against the four 256-row chunks of the
  batch's feature table add up to the table's row at the neighbour index, and the masked, filtered sum over the 64
  neighbours of atom r is the aggregated feature.
-/
import proofs.«420945_j16234976379044_3_alg».proof.Proof.Gen.KernelIdeal.Skeleton
import proofs.«420945_j16234976379044_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Gen

/-! ## Words -/

/-- A boolean widened to 32 bits and read signed is 1 or 0. -/
theorem gather_bit_toInt (b : Bool) : ((BitVec.ofBool b).setWidth 32).toInt = if b then 1 else 0 := by
  cases b <;> decide

/-- A 32-bit word whose signed reading lies in [0, 1024) has that number as its unsigned reading. -/
theorem gather_word_small (c : BitVec 32) (hc : 0 ≤ c.toInt ∧ c.toInt < 1024) :
    c.toInt = (c.toNat : Int) ∧ c.toNat < 1024 := by
  have h := BitVec.toInt_eq_toNat_cond c
  have := c.isLt
  omega

/-- Column j (below 256) equals the neighbour word shifted down by o (at most 768), as 32-bit words, exactly when
    o + j is the neighbour index. -/
theorem gather_word_eq_iff (c : BitVec 32) (hc : 0 ≤ c.toInt ∧ c.toInt < 1024) (o j : Nat) (ho : o ≤ 768) (hj : j < 256) :
    BitVec.ofNat 32 j = c - BitVec.ofNat 32 o ↔ o + j = c.toInt.toNat := by
  obtain ⟨h1, h2⟩ := gather_word_small c hc
  rw [h1, Int.toNat_natCast]
  constructor
  · intro h
    bv_omega
  · intro h
    bv_omega

/-- The comparison bit, widened and converted, is the number 1 or 0. -/
theorem gather_eqBit_value (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  rw [gather_bit_toInt]
  by_cases h : a = b
  · simp [h]
  · simp [h]

/-! ## The one-hot matrix at an entry -/

/-- Entry (r·64 + n, j) of the flattened one-hot array built from the words w: 1 where column j is the word w(r, n). -/
theorem gather_onehot_apply (w : IVec S64x64 32) (r n : Fin 64) (j : Fin 256) :
    shapeCast S4096x256
        (truncf .bf16
          (sitofp (F := Ideal) .f32
            (extui 32
              (cmpi .eq (iota .tc S64x64x256 32 [2] iota_S64x64x256_d2_w32)
                (broadcastTo S64x64x256 (shapeCast S64x64x1 w shapeCasts_S64x64_S64x64x1) broadcasts_S64x64x1_S64x64x256))
              natLt_1_32))
          bitsLt_bf16_f32)
        shapeCasts_S64x64x256_S4096x256 (ix2 (rowOf r n) j)
      = if BitVec.ofNat 32 j.val = w (ix2 r n) then (1 : EReal) else 0 := by
  refine (shapeCast_apply _ _ (ix2 (rowOf r n) j) (ix3 r n j) ?_).trans ?_
  · rw [Shape.rowMajor_val_three, Shape.rowMajor_val_two]
    rfl
  rw [truncf_apply, sitofp_apply, extui_apply]
  show FloatOps.sitofp (F := Ideal) .f32
      ((IntOp.cmpi .eq (iota .tc S64x64x256 32 [2] iota_S64x64x256_d2_w32 (ix3 r n j))
        (broadcastTo S64x64x256 (shapeCast S64x64x1 w shapeCasts_S64x64_S64x64x1) broadcasts_S64x64x1_S64x64x256 (ix3 r n j))).setWidth 32) = _
  rw [iota_single_apply,
    broadcastTo_apply _ broadcasts_S64x64x1_S64x64x256 (ix3 r n j) (ix3 r n (0 : Fin 1)) (fun a => by
      match a with
      | ⟨0, _⟩ => rfl
      | ⟨1, _⟩ => rfl
      | ⟨2, _⟩ => rfl),
    shapeCast_apply w shapeCasts_S64x64_S64x64x1 (ix3 r n (0 : Fin 1)) (ix2 r n) (by
      rw [Shape.rowMajor_val_three, Shape.rowMajor_val_two]
      show r.val * 64 + n.val = (r.val * 64 + n.val) * 1 + 0
      omega),
    gather_eqBit_value]

/-! ## The product of a [4096, 256] by a [256, 128] matrix at an entry -/

/-- The left operand is read at the result's row … -/
theorem gatherDot_lhs_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
/-- … and at the contracted column. -/
theorem gatherDot_lhs_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
/-- The right operand is read at the contracted row … -/
theorem gatherDot_rhs_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
/-- … and at the result's column. -/
theorem gatherDot_rhs_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- Into the zero accumulator, entry (p, f) of the product is the sum over the 256 columns. -/
theorem gatherDot_apply (A : FVec Ideal S4096x256 .bf16) (B : FVec Ideal S256x128 .bf16) (p : Fin 4096) (f : Fin 128) :
    matmul dot_S4096x256_S256x128_S4096x128_1_0_0_1_n_n none A B (constant (F := Ideal) S4096x128 .f32 0x00000000#32) (ix2 p f)
      = ∑ j : Fin 256, A (ix2 p j) * B (ix2 j f) := by
  simp only [matmul]
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 p f) ((contrEquiv1 dot_S4096x256_S256x128_S4096x128_1_0_0_1_n_n 256 rfl rfl).symm k) = ix2 p k := funext fun a => Fin.ext (by
    match a with
    | ⟨0, _⟩ => exact gatherDot_lhs_0 _ _
    | ⟨1, _⟩ => exact (gatherDot_lhs_1 _ _).trans hk)
  have er : dot_S4096x256_S256x128_S4096x128_1_0_0_1_n_n.rhsIdx (ix2 p f) ((contrEquiv1 dot_S4096x256_S256x128_S4096x128_1_0_0_1_n_n 256 rfl rfl).symm k) = ix2 k f := funext fun a => Fin.ext (by
    match a with
    | ⟨0, _⟩ => exact (gatherDot_rhs_0 _ _).trans hk
    | ⟨1, _⟩ => exact gatherDot_rhs_1 _ _)
  rw [el, er]

/-! ## A 256-row slab of the table at an entry -/

/-- Row j of the slab cut at row o is row o + j of the table. -/
theorem gather_slab_apply (v9 : FVec Ideal S1024x128 .f32) (o : Nat) (hs : S1024x128.Slices ![o, 0] S256x128) (j : Fin 256) (f : Fin 128) :
    (truncf .bf16 (extractStridedSlice S256x128 ![o, 0] v9 hs) bitsLt_bf16_f32 : FVec Ideal S256x128 .bf16) (ix2 j f)
      = v9 (ix2 ⟨o + j.val, Nat.lt_of_lt_of_le (Nat.add_lt_add_left j.isLt o) (hs.2 0)⟩ f) := by
  rw [truncf_apply]
  exact slice2_axis0_eq o v9 hs j f

/-! ## One chunk, and the four chunks together -/

/-- One chunk's one-hot row against its slab: the table's row at the neighbour index when that index lies in the
    chunk's 256 rows, and 0 otherwise. -/
theorem gather_chunk_sum (v9 : FVec Ideal S1024x128 .f32) (c : BitVec 32) (hc : 0 ≤ c.toInt ∧ c.toInt < 1024) (o : Nat) (ho : o ≤ 768)
    (hb : ∀ j : Fin 256, o + j.val < 1024) (f : Fin 128) :
    ∑ j : Fin 256, (if BitVec.ofNat 32 j.val = c - BitVec.ofNat 32 o then (1 : EReal) else 0) * v9 (ix2 (⟨o + j.val, hb j⟩ : Fin 1024) f)
      = if o ≤ c.toInt.toNat ∧ c.toInt.toNat < o + 256 then v9 (ix2 (nbrRow c) f) else 0 := by
  obtain ⟨h1, h2⟩ := gather_word_small c hc
  by_cases hin : o ≤ c.toInt.toNat ∧ c.toInt.toNat < o + 256
  · rw [if_pos hin]
    have hj0 : c.toInt.toNat - o < 256 := by omega
    rw [Finset.sum_eq_single (⟨c.toInt.toNat - o, hj0⟩ : Fin 256)]
    · rw [if_pos ((gather_word_eq_iff c hc o _ ho hj0).mpr (by omega)), one_mul]
      refine congrArg (fun i : Fin 1024 => v9 (ix2 i f)) (Fin.ext ?_)
      show o + (c.toInt.toNat - o) = min c.toInt.toNat 1023
      omega
    · intro j _ hne
      rw [if_neg, zero_mul]
      intro heq
      have := (gather_word_eq_iff c hc o j.val ho j.isLt).mp heq
      exact hne (Fin.ext (by show j.val = c.toInt.toNat - o; omega))
    · intro h
      exact absurd (Finset.mem_univ _) h
  · rw [if_neg hin]
    refine Finset.sum_eq_zero fun j _ => ?_
    rw [if_neg, zero_mul]
    intro heq
    have := (gather_word_eq_iff c hc o j.val ho j.isLt).mp heq
    exact hin (by have := j.isLt; omega)

/-- Exactly one of the four chunks holds the neighbour index, so the four terms add up to the table's row. -/
theorem gather_four_chunks (m : Nat) (hm : m < 1024) (T : EReal) :
    (0 : EReal) + (if 0 ≤ m ∧ m < 0 + 256 then T else 0) + (if 256 ≤ m ∧ m < 256 + 256 then T else 0)
        + (if 512 ≤ m ∧ m < 512 + 256 then T else 0) + (if 768 ≤ m ∧ m < 768 + 256 then T else 0) = T := by
  by_cases h0 : m < 256
  · rw [if_pos ⟨by omega, by omega⟩, if_neg (by omega), if_neg (by omega), if_neg (by omega)]
    simp
  by_cases h1 : m < 512
  · rw [if_neg (by omega), if_pos ⟨by omega, by omega⟩, if_neg (by omega), if_neg (by omega)]
    simp
  by_cases h2 : m < 768
  · rw [if_neg (by omega), if_neg (by omega), if_pos ⟨by omega, by omega⟩, if_neg (by omega)]
    simp
  · rw [if_neg (by omega), if_neg (by omega), if_neg (by omega), if_pos ⟨by omega, by omega⟩]
    simp

/-- The zero accumulator at an entry. -/
theorem gather_acc_zero (i : S4096x128.Idx) : k1_pay13 (F := Ideal) i = 0 := by
  unfold k1_pay13
  show Ideal.ofBits .f32 0x00000000#32 = 0
  exact Ideal.ofBits_zero_f32

/-- One chunk's product at entry (r·64 + n, f): the chunk's one-hot row against the chunk's slab of the table. -/
theorem gather_chunk_apply (v5 : IVec S64x64 32) (v9 : FVec Ideal S1024x128 .f32) (o : Nat) (hs : S1024x128.Slices ![o, 0] S256x128)
    (r n : Fin 64) (f : Fin 128) :
    matmul dot_S4096x256_S256x128_S4096x128_1_0_0_1_n_n none
        (shapeCast S4096x256
          (truncf .bf16
            (sitofp (F := Ideal) .f32
              (extui 32
                (cmpi .eq (iota .tc S64x64x256 32 [2] iota_S64x64x256_d2_w32)
                  (broadcastTo S64x64x256 (shapeCast S64x64x1 (subi v5 (broadcast S64x64 (BitVec.ofNat 32 o))) shapeCasts_S64x64_S64x64x1)
                    broadcasts_S64x64x1_S64x64x256))
                natLt_1_32))
            bitsLt_bf16_f32)
          shapeCasts_S64x64x256_S4096x256)
        (truncf .bf16 (extractStridedSlice S256x128 ![o, 0] v9 hs) bitsLt_bf16_f32)
        (constant (F := Ideal) S4096x128 .f32 0x00000000#32) (ix2 (rowOf r n) f)
      = ∑ j : Fin 256, (if BitVec.ofNat 32 j.val = v5 (ix2 r n) - BitVec.ofNat 32 o then (1 : EReal) else 0)
          * v9 (ix2 (⟨o + j.val, Nat.lt_of_lt_of_le (Nat.add_lt_add_left j.isLt o) (hs.2 0)⟩ : Fin 1024) f) := by
  rw [gatherDot_apply]
  refine Finset.sum_congr rfl fun j _ => ?_
  rw [gather_onehot_apply, gather_slab_apply]
  rfl

/-- One chunk's product at an entry, summed: the table's row at the neighbour index, or 0. -/
theorem gather_chunk_value (v5 : IVec S64x64 32) (v9 : FVec Ideal S1024x128 .f32)
    (h5 : ∀ j, 0 ≤ BitVec.toInt (v5 j) ∧ BitVec.toInt (v5 j) < 1024)
    (o : Nat) (ho : o ≤ 768) (hs : S1024x128.Slices ![o, 0] S256x128) (r n : Fin 64) (f : Fin 128) :
    matmul dot_S4096x256_S256x128_S4096x128_1_0_0_1_n_n none
        (shapeCast S4096x256
          (truncf .bf16
            (sitofp (F := Ideal) .f32
              (extui 32
                (cmpi .eq (iota .tc S64x64x256 32 [2] iota_S64x64x256_d2_w32)
                  (broadcastTo S64x64x256 (shapeCast S64x64x1 (subi v5 (broadcast S64x64 (BitVec.ofNat 32 o))) shapeCasts_S64x64_S64x64x1)
                    broadcasts_S64x64x1_S64x64x256))
                natLt_1_32))
            bitsLt_bf16_f32)
          shapeCasts_S64x64x256_S4096x256)
        (truncf .bf16 (extractStridedSlice S256x128 ![o, 0] v9 hs) bitsLt_bf16_f32)
        (constant (F := Ideal) S4096x128 .f32 0x00000000#32) (ix2 (rowOf r n) f)
      = if o ≤ (v5 (ix2 r n)).toInt.toNat ∧ (v5 (ix2 r n)).toInt.toNat < o + 256 then v9 (ix2 (nbrRow (v5 (ix2 r n))) f) else 0 := by
  rw [gather_chunk_apply]
  exact gather_chunk_sum v9 (v5 (ix2 r n)) (h5 _) o ho _ f

/-! ## The reduction over the neighbours, and the whole stage -/

/-- The sum over axis 1 of a [64, 64, 128] array at (r, f) is the sum over n of its entries (r, n, f). -/
theorem gather_sum_nbr_apply (src : FVec Ideal S64x64x128 .f32) (hφ : FKind.Formats .f32)
    (hacc : (0x00000000#32 : BitVec 32) = FKind.add.neutral .f32 hφ) (r : Fin 64) (f : Fin 128) :
    multiReduction (F := Ideal) .add [1] S64x128 src 0x00000000#32 reduces_S64x64x128_S64x128 hφ hacc (ix2 r f)
      = ∑ n : Fin 64, src (ix3 r n f) := by
  refine (Ideal.multiReduction_add_single src 0x00000000#32 reduces_S64x64x128_S64x128 hφ hacc (ix2 r f)).trans ?_
  show ∑ n : Fin 64, src (reduces_S64x64x128_S64x128.lift (ix2 r f) n) = _
  refine Finset.sum_congr rfl fun n _ => congrArg src (funext fun a => Fin.ext ?_)
  match a with
  | ⟨0, _⟩ => rfl
  | ⟨1, _⟩ => rfl
  | ⟨2, _⟩ => rfl

theorem pay16_apply (v5 : IVec S64x64 32) (v9 : FVec Ideal S1024x128 .f32) (v68 : FVec Ideal S4096x128 .f32)
    (h5 : ∀ j, 0 ≤ BitVec.toInt (v5 j) ∧ BitVec.toInt (v5 j) < 1024) (r : Fin 64) (f : Fin 128) :
    k1_pay16 (F := Ideal) v5 v9 v68 (iota .tc S64x64x256 32 [2] iota_S64x64x256_d2_w32) (k1_pay13 (F := Ideal))
        (k1_pay14 (F := Ideal) v9) (k1_pay15 v5) (ix2 r f)
      = ∑ n : Fin 64, v9 (ix2 (nbrRow (v5 (ix2 r n))) f) * v68 (ix2 (rowOf r n) f) := by
  unfold k1_pay16 k1_pay14 k1_pay15
  rw [truncf_apply]
  refine (gather_sum_nbr_apply _ _ _ r f).trans ?_
  refine Finset.sum_congr rfl fun n _ => ?_
  refine (shapeCast_apply _ _ (ix3 r n f) (ix2 (rowOf r n) f) ?_).trans ?_
  · rw [Shape.rowMajor_val_three, Shape.rowMajor_val_two]
    rfl
  rw [mulf_apply, addf_apply, addf_apply, addf_apply, addf_apply, gather_acc_zero,
    gather_chunk_value v5 v9 h5 0 (by omega) slices_S1024x128_o0_0_S256x128 r n f,
    gather_chunk_value v5 v9 h5 256 (by omega) slices_S1024x128_o256_0_S256x128 r n f,
    gather_chunk_value v5 v9 h5 512 (by omega) slices_S1024x128_o512_0_S256x128 r n f,
    gather_chunk_value v5 v9 h5 768 (by omega) slices_S1024x128_o768_0_S256x128 r n f,
    gather_four_chunks _ (by have := (gather_word_small _ (h5 (ix2 r n))); omega)]

end Cert.Bridge

end
-- ==== Proof.KPayC.lean ====
/-
  The two output layers of the fused kernel read at one entry: the aggregated row of atom r through f2out, the
  shifted softplus and the final dense layer.
-/
import proofs.«420945_j16234976379044_3_alg».proof.Proof.Gen.KernelIdeal.Skeleton
import proofs.«420945_j16234976379044_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Gen

/-! ## The [64,128] × [128,128] product: which operand entries meet at a result entry -/

/-- The left operand's row coordinate is the result's row. -/
theorem headDot_lhs_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
/-- The left operand's column coordinate is the contraction position. -/
theorem headDot_lhs_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
/-- The right operand's row coordinate is the contraction position. -/
theorem headDot_rhs_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
/-- The right operand's column coordinate is the result's column. -/
theorem headDot_rhs_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The product into a zero accumulator at (r, o): row r of the left operand against column o of the right one. -/
theorem headDot_apply (A : FVec Ideal S64x128 .bf16) (B : FVec Ideal S128x128 .bf16) (r : Fin 64) (o : Fin 128) :
    matmul dot_S64x128_S128x128_S64x128_1_0_0_1_n_n none A B (constant (F := Ideal) S64x128 .f32 0x00000000#32) (ix2 r o)
      = ∑ f : Fin 128, A (ix2 r f) * B (ix2 f o) := by
  simp only [matmul]
  rw [Ideal.matmul_constant_zero_apply, ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 r o) ((contrEquiv1 dot_S64x128_S128x128_S64x128_1_0_0_1_n_n 128 rfl rfl).symm k) = ix2 r k := funext fun a => Fin.ext (by
    match a with
    | ⟨0, _⟩ => exact headDot_lhs_0 _ _
    | ⟨1, _⟩ => exact (headDot_lhs_1 _ _).trans hk)
  have er : dot_S64x128_S128x128_S64x128_1_0_0_1_n_n.rhsIdx (ix2 r o) ((contrEquiv1 dot_S64x128_S128x128_S64x128_1_0_0_1_n_n 128 rfl rfl).symm k) = ix2 k o := funext fun a => Fin.ext (by
    match a with
    | ⟨0, _⟩ => exact (headDot_rhs_0 _ _).trans hk
    | ⟨1, _⟩ => exact headDot_rhs_1 _ _)
  rw [el, er]

/-! ## One dense layer at an entry -/

/-- A dense layer at (r, o): row r of the input against row o of the weight, plus the bias at o. -/
theorem headDense_apply (A : FVec Ideal S64x128 .bf16) (W : Vec Ideal S128x128 .f32) (b : FVec Ideal S1x128 .f32)
    (r : Fin 64) (o : Fin 128) :
    addf (matmul dot_S64x128_S128x128_S64x128_1_0_0_1_n_n none A
        (transpose S128x128 [1, 0] (truncf .bf16 W bitsLt_bf16_f32 : FVec Ideal S128x128 .bf16) transposes_S128x128_p1_0_S128x128)
        (constant (F := Ideal) S64x128 .f32 0x00000000#32))
      (broadcastTo S64x128 b broadcasts_S1x128_S64x128) (ix2 r o)
      = (∑ f : Fin 128, A (ix2 r f) * W (ix2 o f)) + b (ix2 0 o) := by
  rw [addf_apply, headDot_apply, broadcastTo_1b_ab_apply]
  congr 1
  refine Finset.sum_congr rfl fun f _ => ?_
  rw [transpose_ix2_apply, truncf_apply]

/-! ## The payload at an entry -/

/-- The stored tile at (0, r, p): the first dense layer of the aggregated row, the shifted softplus, the second dense
    layer; the leading unit axis of the tile carries no information. -/
theorem pay1_apply (v16 : Vec Ideal S128x128 .f32) (v18 : FVec Ideal S1x128 .f32) (v19 : Vec Ideal S128x128 .f32)
    (v21 : FVec Ideal S1x128 .f32) (v126 : FVec Ideal S64x128 .bf16) (r : Fin 64) (p : Fin 128) :
    k1_pay1 (F := Ideal) v16 v18 v19 v21 v126 (ix3 0 r p)
      = headA (fun f => v126 (ix2 r f)) (fun o f => v16 (ix2 o f)) (fun o => v18 (ix2 0 o))
          (fun p' o => v19 (ix2 p' o)) (fun p' => v21 (ix2 0 p')) p := by
  unfold k1_pay1
  refine (shapeCast_ab_1ab_apply _ _ 0 r p).trans ?_
  rw [headDense_apply]
  unfold headA
  congr 1
  refine Finset.sum_congr rfl fun o _ => ?_
  congr 1
  rw [truncf_apply]
  show ssp _ = _
  rw [headDense_apply]

end Cert.Bridge

end
-- ==== Proof.KBlock.lean ====
/-
  One tile of the fused kernel as the specification's per-atom function: what the body stores at (0, r, p) of its
  [1,64,128] output block is the output row of atom r of the tile, read off the tile's input blocks. The body's small
  payloads are layout only (a leading unit axis dropped, the tile's (atom, neighbour) pairs flattened row-major, a
  transposed weight); the three stages that compute are read in their own modules.
-/
import proofs.«420945_j16234976379044_3_alg».proof.Proof.Gen.KernelIdeal.Frame
import proofs.«420945_j16234976379044_3_alg».proof.Proof.Spec
import proofs.«420945_j16234976379044_3_alg».proof.Proof.KPayA
import proofs.«420945_j16234976379044_3_alg».proof.Proof.KPayB
import proofs.«420945_j16234976379044_3_alg».proof.Proof.KPayC
import Idealize.ShloMosaic.Lib.ValueIdx
import Idealize.ShloMosaic.Lib.Pipeline.Value
import Idealize.ShloMosaic.PureOps.Ideal.Laws

set_option maxRecDepth 16384

noncomputable section

open scoped BigOperators

namespace Cert.Bridge

open Idealize.ShloMosaic Idealize.ShloMosaic.ValueIdx Cert.KernelIdeal Cert.KernelIdeal.Gen

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The layout payloads at an index -/

/-- A [1,64,64] block viewed [64,64] reads (0, r, n) at (r, n). -/
theorem pay2_apply (x : Vec Ideal S1x64x64 .f32) (r n : Fin 64) : k1_pay2 (F := Ideal) x (ix2 r n) = x (ix3 0 r n) := by
  unfold k1_pay2
  refine shapeCast_apply x _ (ix2 r n) (ix3 0 r n) ?_
  rw [Shape.rowMajor_val_three, Shape.rowMajor_val_two]
  show ((0 : ℕ) * 64 + r.val) * 64 + n.val = r.val * 64 + n.val
  omega
theorem pay3_apply (x : Vec Ideal S1x64x64 .i32) (r n : Fin 64) : k1_pay3 (F := Ideal) x (ix2 r n) = x (ix3 0 r n) := by
  unfold k1_pay3
  refine shapeCast_apply x _ (ix2 r n) (ix3 0 r n) ?_
  rw [Shape.rowMajor_val_three, Shape.rowMajor_val_two]
  show ((0 : ℕ) * 64 + r.val) * 64 + n.val = r.val * 64 + n.val
  omega
theorem pay4_apply (x : Vec Ideal S1x64x64 .f32) (r n : Fin 64) : k1_pay4 (F := Ideal) x (ix2 r n) = x (ix3 0 r n) := by
  unfold k1_pay4
  refine shapeCast_apply x _ (ix2 r n) (ix3 0 r n) ?_
  rw [Shape.rowMajor_val_three, Shape.rowMajor_val_two]
  show ((0 : ℕ) * 64 + r.val) * 64 + n.val = r.val * 64 + n.val
  omega
/-- The batch's [1,1024,128] table block viewed [1024,128]. -/
theorem pay5_apply (x : Vec Ideal S1x1024x128 .f32) (a : Fin 1024) (f : Fin 128) : k1_pay5 (F := Ideal) x (ix2 a f) = x (ix3 0 a f) := by
  unfold k1_pay5
  refine shapeCast_apply x _ (ix2 a f) (ix3 0 a f) ?_
  rw [Shape.rowMajor_val_three, Shape.rowMajor_val_two]
  show ((0 : ℕ) * 1024 + a.val) * 128 + f.val = a.val * 128 + f.val
  omega
/-- A reshape of a [1,128] row to its own shape. -/
theorem pay6_eq (x : Vec Ideal S1x128 .f32) : k1_pay6 (F := Ideal) x = x := shapeCast_self _ _
theorem pay7_eq (x : Vec Ideal S1x128 .f32) : k1_pay7 (F := Ideal) x = x := shapeCast_self _ _
theorem pay8_eq (x : Vec Ideal S1x128 .f32) : k1_pay8 (F := Ideal) x = x := shapeCast_self _ _
theorem pay9_eq (x : Vec Ideal S1x128 .f32) : k1_pay9 (F := Ideal) x = x := shapeCast_self _ _
/-- The tile's radial features flattened over (atom, neighbour): row r·64 + n holds pair (r, n). -/
theorem pay10_apply (x : Vec Ideal S1x64x64x50 .f32) (r n : Fin 64) (s : Fin 50) :
    k1_pay10 (F := Ideal) x (ix2 (rowOf r n) s) = x (ix4 0 r n s) := by
  unfold k1_pay10
  show shapeCast S4096x50 (shapeCast S64x64x50 x shapeCasts_S1x64x64x50_S64x64x50) shapeCasts_S64x64x50_S4096x50 (ix2 (rowOf r n) s) = _
  refine (shapeCast_apply _ _ (ix2 (rowOf r n) s) (ix3 r n s) ?_).trans ?_
  · rw [Shape.rowMajor_val_three, Shape.rowMajor_val_two]
    show (r.val * 64 + n.val) * 50 + s.val = (r.val * 64 + n.val) * 50 + s.val
    rfl
  · refine shapeCast_apply x _ (ix3 r n s) (ix4 0 r n s) ?_
    rw [Shape.rowMajor_val_four, Shape.rowMajor_val_three]
    show (((0 : ℕ) * 64 + r.val) * 64 + n.val) * 50 + s.val = (r.val * 64 + n.val) * 50 + s.val
    omega
/-- The first filter weight transposed: entry (s, f) of the transpose is entry (f, s). -/
theorem pay11_apply (x : Vec Ideal S128x50 .f32) (s : Fin 50) (f : Fin 128) : k1_pay11 (F := Ideal) x (ix2 s f) = x (ix2 f s) := by
  unfold k1_pay11
  show transpose S50x128 [1, 0] x transposes_S128x50_p1_0_S50x128 (ix2 s f) = _
  exact transpose_apply [1, 0] x _ (ix2 s f) (ix2 f s) (fun b => match b with | ⟨0, _⟩ => rfl | ⟨1, _⟩ => rfl)

/-! ## The tile -/

theorem out1_13_apply (x0 : Vec Ideal S1x64x64x50 .f32) (x1 : Vec Ideal S1x64x64 .f32) (x2 : Vec Ideal S1x64x64 .i32)
    (x3 : Vec Ideal S1x64x64 .f32) (x4 : Vec Ideal S1x1024x128 .f32) (x5 : Vec Ideal S128x50 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32)
    (hx2 : ∀ j, 0 ≤ BitVec.toInt (x2 j) ∧ BitVec.toInt (x2 j) < 1024) (r : Fin 64) (p : Fin 128) :
    out1_13 (F := Ideal) x0 x1 x2 x3 x4 x5 x6 x7 x8 x9 x10 x11 x12 (ix3 0 r p)
      = outA (fun a' f => x4 (ix3 0 a' f)) (fun n => x1 (ix3 0 r n)) (fun n => x2 (ix3 0 r n)) (fun n => x3 (ix3 0 r n))
          (fun n s => x0 (ix4 0 r n s)) (fun f s => x5 (ix2 f s)) (fun f => x6 (ix2 0 f)) (fun g f => x7 (ix2 g f))
          (fun g => x8 (ix2 0 g)) (fun o f => x9 (ix2 o f)) (fun o => x10 (ix2 0 o)) (fun p' o => x11 (ix2 p' o))
          (fun p' => x12 (ix2 0 p')) p := by
  unfold out1_13
  rw [View.canon_unit_zero zeros3]
  simp only [View.ld_unit_zero (S := S1x64x64x50) zeros4, View.ld_unit_zero (S := S1x64x64) zeros3,
    View.ld_unit_zero (S := S1x1024x128) zeros3, View.ld_unit_zero (S := S128x50) zeros2,
    View.ld_unit_zero (S := S1x128) zeros2, View.ld_unit_zero (S := S128x128) zeros2]
  rw [pay1_apply, pay8_eq, pay9_eq]
  unfold outA
  congr 1
  funext f
  have h5 : ∀ j, 0 ≤ BitVec.toInt (k1_pay3 (F := Ideal) x2 j) ∧ BitVec.toInt (k1_pay3 (F := Ideal) x2 j) < 1024 := by
    intro j; unfold k1_pay3 shapeCast; exact hx2 _
  rw [pay16_apply _ _ _ h5 r f]
  unfold aggA
  refine Finset.sum_congr rfl fun n _ => ?_
  rw [pay12_apply, pay5_apply, pay3_apply]
  simp only [pay10_apply, pay11_apply, pay6_eq, pay7_eq, pay2_apply, pay4_apply]

end Cert.Bridge

end
-- ==== Proof.KReg1.lean ====
/-
  The second pallas_call as a function of whole arrays: over its grid of 8 batches × 16 tiles of 64 atoms, the point
  (b, i) writes rows 64·i … 64·i+63 of batch b, each the specification's per-atom output read off the whole operand
  arrays, so the array the call leaves is the fused second stage G1 of the operand arrays as the region finds them —
  provided the neighbour words it finds lie in [0, 1023].
-/
import proofs.«420945_j16234976379044_3_alg».proof.Proof.Gen.KernelIdeal.Frame
import proofs.«420945_j16234976379044_3_alg».proof.Proof.Spec
import proofs.«420945_j16234976379044_3_alg».proof.Proof.KBlock
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.Bridge

open Idealize.ShloMosaic Idealize.ShloMosaic.ValueIdx Idealize.ShloMosaic.TcCoe Idealize.SL.Sem Cert.KernelIdeal Cert.KernelIdeal.Gen

/-! ## The index maps over the grid of 8 batches × 16 tiles -/

/-- Per-pair blocks move with the output block on the batch and tile axes; the feature table moves with the batch only;
    the output block's batch and tile indices stay in range. -/
theorem reg1_tile_index : ∀ t : Fin cfg1.N,
    win1_0.index t (0 : Fin 4) = win1_13.index t (0 : Fin 3) ∧ win1_0.index t (1 : Fin 4) = win1_13.index t (1 : Fin 3)
    ∧ win1_0.index t (2 : Fin 4) = 0 ∧ win1_0.index t (3 : Fin 4) = 0
    ∧ win1_1.index t (0 : Fin 3) = win1_13.index t (0 : Fin 3) ∧ win1_1.index t (1 : Fin 3) = win1_13.index t (1 : Fin 3)
    ∧ win1_1.index t (2 : Fin 3) = 0
    ∧ win1_2.index t (0 : Fin 3) = win1_13.index t (0 : Fin 3) ∧ win1_2.index t (1 : Fin 3) = win1_13.index t (1 : Fin 3)
    ∧ win1_2.index t (2 : Fin 3) = 0
    ∧ win1_3.index t (0 : Fin 3) = win1_13.index t (0 : Fin 3) ∧ win1_3.index t (1 : Fin 3) = win1_13.index t (1 : Fin 3)
    ∧ win1_3.index t (2 : Fin 3) = 0
    ∧ win1_4.index t (0 : Fin 3) = win1_13.index t (0 : Fin 3) ∧ win1_4.index t (1 : Fin 3) = 0 ∧ win1_4.index t (2 : Fin 3) = 0
    ∧ win1_13.index t (0 : Fin 3) ≤ 7 ∧ win1_13.index t (1 : Fin 3) ≤ 15 ∧ win1_13.index t (2 : Fin 3) = 0 :=
  (by decide +kernel : ∀ t : Fin grid1.N, _)

/-- The weights and biases are read whole at every point. -/
theorem reg1_whole_index : ∀ t : Fin cfg1.N,
    win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0 :=
  (by decide +kernel : ∀ t : Fin grid1.N, _)

/-- Every (batch, tile) pair is some grid point's. -/
theorem reg1_index_onto : ∀ (q0 : Fin 8) (q1 : Fin 16), ∃ t : Fin cfg1.N, win1_13.index t = ![q0.val, q1.val, 0] :=
  (by decide +kernel : ∀ (q0 : Fin 8) (q1 : Fin 16), ∃ t : Fin grid1.N, win1_13.index t = ![q0.val, q1.val, 0])

/-! ## Each input block at a tile index is the operand array at the whole-array index -/

/-- The tile's radial features: pair (r, n) of the tile is pair (64·i + r, n) of batch b. -/
theorem reg1_blk0_read (V : (c : Dev nD) → (b : Ref sig .tc) → Buf (Elt Ideal) ((c : Thread nD τ).loc b)) (c : Dev nD)
    (t : Fin cfg1.N) (b : Fin 8) (a : Fin 1024) (r : Fin 64) (hb : b.val = win1_13.index t (0 : Fin 3))
    (ha : a.val = win1_13.index t (1 : Fin 3) * 64 + r.val) (n : Fin 64) (s : Fin 50) :
    iblk1 (F := Ideal) V c 0 t (ix4 0 r n s : S1x64x64x50.Idx) = V c main_arg4 (ix4 b a n s : S8x1024x64x50.Idx) := by
  obtain ⟨e0, e1, e2, e3, e4, e5, e6, e7, e8, e9, e10, e11, e12, e13, e14, e15, e16, e17, e18⟩ := reg1_tile_index t
  unfold iblk1
  rw [View.read_apply]
  show V c main_arg4 _ = V c main_arg4 _
  refine congrArg _ ?_
  funext x
  apply Fin.ext
  match x with
  | ⟨0, _⟩ => show win1_0.index t (0 : Fin 4) * 1 + 1 * 0 = b.val; omega
  | ⟨1, _⟩ => show win1_0.index t (1 : Fin 4) * 64 + 1 * r.val = a.val; omega
  | ⟨2, _⟩ => show win1_0.index t (2 : Fin 4) * 64 + 1 * n.val = n.val; omega
  | ⟨3, _⟩ => show win1_0.index t (3 : Fin 4) * 50 + 1 * s.val = s.val; omega

/-- The tile's distances. -/
theorem reg1_blk1_read (V : (c : Dev nD) → (b : Ref sig .tc) → Buf (Elt Ideal) ((c : Thread nD τ).loc b)) (c : Dev nD)
    (t : Fin cfg1.N) (b : Fin 8) (a : Fin 1024) (r : Fin 64) (hb : b.val = win1_13.index t (0 : Fin 3))
    (ha : a.val = win1_13.index t (1 : Fin 3) * 64 + r.val) (n : Fin 64) :
    iblk1 (F := Ideal) V c 1 t (ix3 0 r n : S1x64x64.Idx) = V c main_arg1 (ix3 b a n : S8x1024x64.Idx) := by
  obtain ⟨e0, e1, e2, e3, e4, e5, e6, e7, e8, e9, e10, e11, e12, e13, e14, e15, e16, e17, e18⟩ := reg1_tile_index t
  unfold iblk1
  rw [View.read_apply]
  show V c main_arg1 _ = V c main_arg1 _
  refine congrArg _ ?_
  funext x
  apply Fin.ext
  match x with
  | ⟨0, _⟩ => show win1_1.index t (0 : Fin 3) * 1 + 1 * 0 = b.val; omega
  | ⟨1, _⟩ => show win1_1.index t (1 : Fin 3) * 64 + 1 * r.val = a.val; omega
  | ⟨2, _⟩ => show win1_1.index t (2 : Fin 3) * 64 + 1 * n.val = n.val; omega

/-- The tile's neighbour words. -/
theorem reg1_blk2_read (V : (c : Dev nD) → (b : Ref sig .tc) → Buf (Elt Ideal) ((c : Thread nD τ).loc b)) (c : Dev nD)
    (t : Fin cfg1.N) (b : Fin 8) (a : Fin 1024) (r : Fin 64) (hb : b.val = win1_13.index t (0 : Fin 3))
    (ha : a.val = win1_13.index t (1 : Fin 3) * 64 + r.val) (n : Fin 64) :
    iblk1 (F := Ideal) V c 2 t (ix3 0 r n : S1x64x64.Idx) = V c main_v0 (ix3 b a n : S8x1024x64.Idx) := by
  obtain ⟨e0, e1, e2, e3, e4, e5, e6, e7, e8, e9, e10, e11, e12, e13, e14, e15, e16, e17, e18⟩ := reg1_tile_index t
  unfold iblk1
  rw [View.read_apply]
  show V c main_v0 _ = V c main_v0 _
  refine congrArg _ ?_
  funext x
  apply Fin.ext
  match x with
  | ⟨0, _⟩ => show win1_2.index t (0 : Fin 3) * 1 + 1 * 0 = b.val; omega
  | ⟨1, _⟩ => show win1_2.index t (1 : Fin 3) * 64 + 1 * r.val = a.val; omega
  | ⟨2, _⟩ => show win1_2.index t (2 : Fin 3) * 64 + 1 * n.val = n.val; omega

/-- The tile's neighbour mask. -/
theorem reg1_blk3_read (V : (c : Dev nD) → (b : Ref sig .tc) → Buf (Elt Ideal) ((c : Thread nD τ).loc b)) (c : Dev nD)
    (t : Fin cfg1.N) (b : Fin 8) (a : Fin 1024) (r : Fin 64) (hb : b.val = win1_13.index t (0 : Fin 3))
    (ha : a.val = win1_13.index t (1 : Fin 3) * 64 + r.val) (n : Fin 64) :
    iblk1 (F := Ideal) V c 3 t (ix3 0 r n : S1x64x64.Idx) = V c main_arg3 (ix3 b a n : S8x1024x64.Idx) := by
  obtain ⟨e0, e1, e2, e3, e4, e5, e6, e7, e8, e9, e10, e11, e12, e13, e14, e15, e16, e17, e18⟩ := reg1_tile_index t
  unfold iblk1
  rw [View.read_apply]
  show V c main_arg3 _ = V c main_arg3 _
  refine congrArg _ ?_
  funext x
  apply Fin.ext
  match x with
  | ⟨0, _⟩ => show win1_3.index t (0 : Fin 3) * 1 + 1 * 0 = b.val; omega
  | ⟨1, _⟩ => show win1_3.index t (1 : Fin 3) * 64 + 1 * r.val = a.val; omega
  | ⟨2, _⟩ => show win1_3.index t (2 : Fin 3) * 64 + 1 * n.val = n.val; omega

/-- The batch's feature table: every tile of batch b reads the whole table of b. -/
theorem reg1_blk4_read (V : (c : Dev nD) → (b : Ref sig .tc) → Buf (Elt Ideal) ((c : Thread nD τ).loc b)) (c : Dev nD)
    (t : Fin cfg1.N) (b : Fin 8) (hb : b.val = win1_13.index t (0 : Fin 3)) (a' : Fin 1024) (f : Fin 128) :
    iblk1 (F := Ideal) V c 4 t (ix3 0 a' f : S1x1024x128.Idx) = V c main_v5 (ix3 b a' f : S8x1024x128.Idx) := by
  obtain ⟨e0, e1, e2, e3, e4, e5, e6, e7, e8, e9, e10, e11, e12, e13, e14, e15, e16, e17, e18⟩ := reg1_tile_index t
  unfold iblk1
  rw [View.read_apply]
  show V c main_v5 _ = V c main_v5 _
  refine congrArg _ ?_
  funext x
  apply Fin.ext
  match x with
  | ⟨0, _⟩ => show win1_4.index t (0 : Fin 3) * 1 + 1 * 0 = b.val; omega
  | ⟨1, _⟩ => show win1_4.index t (1 : Fin 3) * 1024 + 1 * a'.val = a'.val; omega
  | ⟨2, _⟩ => show win1_4.index t (2 : Fin 3) * 128 + 1 * f.val = f.val; omega

/-- The first filter weight, whole at every point. -/
theorem reg1_blk5_read (V : (c : Dev nD) → (b : Ref sig .tc) → Buf (Elt Ideal) ((c : Thread nD τ).loc b)) (c : Dev nD)
    (t : Fin cfg1.N) (y : S128x50.Idx) : iblk1 (F := Ideal) V c 5 t y = V c main_arg6 y := by
  obtain ⟨e0, e1, e2, e3, e4, e5, e6, e7, e8, e9, e10, e11, e12, e13, e14, e15⟩ := reg1_whole_index t
  unfold iblk1
  rw [View.read_apply]
  show V c main_arg6 _ = V c main_arg6 _
  refine congrArg _ ?_
  funext x
  apply Fin.ext
  match x with
  | ⟨0, _⟩ => show win1_5.index t (0 : Fin 2) * 128 + 1 * (y 0).val = (y 0).val; omega
  | ⟨1, _⟩ => show win1_5.index t (1 : Fin 2) * 50 + 1 * (y 1).val = (y 1).val; omega

/-- The first filter bias as a row, whole at every point. -/
theorem reg1_blk6_read (V : (c : Dev nD) → (b : Ref sig .tc) → Buf (Elt Ideal) ((c : Thread nD τ).loc b)) (c : Dev nD)
    (t : Fin cfg1.N) (y : S1x128.Idx) : iblk1 (F := Ideal) V c 6 t y = V c main_v1 y := by
  obtain ⟨e0, e1, e2, e3, e4, e5, e6, e7, e8, e9, e10, e11, e12, e13, e14, e15⟩ := reg1_whole_index t
  unfold iblk1
  rw [View.read_apply]
  show V c main_v1 _ = V c main_v1 _
  refine congrArg _ ?_
  funext x
  apply Fin.ext
  match x with
  | ⟨0, _⟩ => show win1_6.index t (0 : Fin 2) * 1 + 1 * (y 0).val = (y 0).val; omega
  | ⟨1, _⟩ => show win1_6.index t (1 : Fin 2) * 128 + 1 * (y 1).val = (y 1).val; omega

/-- The second filter weight, whole at every point. -/
theorem reg1_blk7_read (V : (c : Dev nD) → (b : Ref sig .tc) → Buf (Elt Ideal) ((c : Thread nD τ).loc b)) (c : Dev nD)
    (t : Fin cfg1.N) (y : S128x128.Idx) : iblk1 (F := Ideal) V c 7 t y = V c main_arg8 y := by
  obtain ⟨e0, e1, e2, e3, e4, e5, e6, e7, e8, e9, e10, e11, e12, e13, e14, e15⟩ := reg1_whole_index t
  unfold iblk1
  rw [View.read_apply]
  show V c main_arg8 _ = V c main_arg8 _
  refine congrArg _ ?_
  funext x
  apply Fin.ext
  match x with
  | ⟨0, _⟩ => show win1_7.index t (0 : Fin 2) * 128 + 1 * (y 0).val = (y 0).val; omega
  | ⟨1, _⟩ => show win1_7.index t (1 : Fin 2) * 128 + 1 * (y 1).val = (y 1).val; omega

/-- The second filter bias as a row, whole at every point. -/
theorem reg1_blk8_read (V : (c : Dev nD) → (b : Ref sig .tc) → Buf (Elt Ideal) ((c : Thread nD τ).loc b)) (c : Dev nD)
    (t : Fin cfg1.N) (y : S1x128.Idx) : iblk1 (F := Ideal) V c 8 t y = V c main_v2 y := by
  obtain ⟨e0, e1, e2, e3, e4, e5, e6, e7, e8, e9, e10, e11, e12, e13, e14, e15⟩ := reg1_whole_index t
  unfold iblk1
  rw [View.read_apply]
  show V c main_v2 _ = V c main_v2 _
  refine congrArg _ ?_
  funext x
  apply Fin.ext
  match x with
  | ⟨0, _⟩ => show win1_8.index t (0 : Fin 2) * 1 + 1 * (y 0).val = (y 0).val; omega
  | ⟨1, _⟩ => show win1_8.index t (1 : Fin 2) * 128 + 1 * (y 1).val = (y 1).val; omega

/-- The f2out weight, whole at every point. -/
theorem reg1_blk9_read (V : (c : Dev nD) → (b : Ref sig .tc) → Buf (Elt Ideal) ((c : Thread nD τ).loc b)) (c : Dev nD)
    (t : Fin cfg1.N) (y : S128x128.Idx) : iblk1 (F := Ideal) V c 9 t y = V c main_arg10 y := by
  obtain ⟨e0, e1, e2, e3, e4, e5, e6, e7, e8, e9, e10, e11, e12, e13, e14, e15⟩ := reg1_whole_index t
  unfold iblk1
  rw [View.read_apply]
  show V c main_arg10 _ = V c main_arg10 _
  refine congrArg _ ?_
  funext x
  apply Fin.ext
  match x with
  | ⟨0, _⟩ => show win1_9.index t (0 : Fin 2) * 128 + 1 * (y 0).val = (y 0).val; omega
  | ⟨1, _⟩ => show win1_9.index t (1 : Fin 2) * 128 + 1 * (y 1).val = (y 1).val; omega

/-- The f2out bias as a row, whole at every point. -/
theorem reg1_blk10_read (V : (c : Dev nD) → (b : Ref sig .tc) → Buf (Elt Ideal) ((c : Thread nD τ).loc b)) (c : Dev nD)
    (t : Fin cfg1.N) (y : S1x128.Idx) : iblk1 (F := Ideal) V c 10 t y = V c main_v3 y := by
  obtain ⟨e0, e1, e2, e3, e4, e5, e6, e7, e8, e9, e10, e11, e12, e13, e14, e15⟩ := reg1_whole_index t
  unfold iblk1
  rw [View.read_apply]
  show V c main_v3 _ = V c main_v3 _
  refine congrArg _ ?_
  funext x
  apply Fin.ext
  match x with
  | ⟨0, _⟩ => show win1_10.index t (0 : Fin 2) * 1 + 1 * (y 0).val = (y 0).val; omega
  | ⟨1, _⟩ => show win1_10.index t (1 : Fin 2) * 128 + 1 * (y 1).val = (y 1).val; omega

/-- The final dense weight, whole at every point. -/
theorem reg1_blk11_read (V : (c : Dev nD) → (b : Ref sig .tc) → Buf (Elt Ideal) ((c : Thread nD τ).loc b)) (c : Dev nD)
    (t : Fin cfg1.N) (y : S128x128.Idx) : iblk1 (F := Ideal) V c 11 t y = V c main_arg12 y := by
  obtain ⟨e0, e1, e2, e3, e4, e5, e6, e7, e8, e9, e10, e11, e12, e13, e14, e15⟩ := reg1_whole_index t
  unfold iblk1
  rw [View.read_apply]
  show V c main_arg12 _ = V c main_arg12 _
  refine congrArg _ ?_
  funext x
  apply Fin.ext
  match x with
  | ⟨0, _⟩ => show win1_11.index t (0 : Fin 2) * 128 + 1 * (y 0).val = (y 0).val; omega
  | ⟨1, _⟩ => show win1_11.index t (1 : Fin 2) * 128 + 1 * (y 1).val = (y 1).val; omega

/-- The final dense bias as a row, whole at every point. -/
theorem reg1_blk12_read (V : (c : Dev nD) → (b : Ref sig .tc) → Buf (Elt Ideal) ((c : Thread nD τ).loc b)) (c : Dev nD)
    (t : Fin cfg1.N) (y : S1x128.Idx) : iblk1 (F := Ideal) V c 12 t y = V c main_v4 y := by
  obtain ⟨e0, e1, e2, e3, e4, e5, e6, e7, e8, e9, e10, e11, e12, e13, e14, e15⟩ := reg1_whole_index t
  unfold iblk1
  rw [View.read_apply]
  show V c main_v4 _ = V c main_v4 _
  refine congrArg _ ?_
  funext x
  apply Fin.ext
  match x with
  | ⟨0, _⟩ => show win1_12.index t (0 : Fin 2) * 1 + 1 * (y 0).val = (y 0).val; omega
  | ⟨1, _⟩ => show win1_12.index t (1 : Fin 2) * 128 + 1 * (y 1).val = (y 1).val; omega

/-! ## What a grid point writes back -/

/-- Where entry (0, r, p) of the output block of point t sits in the output array: batch b, atom 64·i + r. -/
theorem reg1_out_emb (t : Fin cfg1.N) (r : Fin 64) (p : Fin 128) :
    ∃ (b : Fin 8) (a : Fin 1024), b.val = win1_13.index t (0 : Fin 3) ∧ a.val = win1_13.index t (1 : Fin 3) * 64 + r.val
      ∧ ((cfg1.win 13).blk t).view.emb (ix3 0 r p : S1x64x128.Idx) = (ix3 b a p : S8x1024x128.Idx) := by
  obtain ⟨e0, e1, e2, e3, e4, e5, e6, e7, e8, e9, e10, e11, e12, e13, e14, e15, e16, e17, e18⟩ := reg1_tile_index t
  refine ⟨⟨win1_13.index t (0 : Fin 3), by omega⟩, ⟨win1_13.index t (1 : Fin 3) * 64 + r.val, by omega⟩, rfl, rfl, ?_⟩
  funext x
  apply Fin.ext
  match x with
  | ⟨0, _⟩ => show win1_13.index t (0 : Fin 3) * 1 + 1 * 0 = win1_13.index t (0 : Fin 3); omega
  | ⟨1, _⟩ => show win1_13.index t (1 : Fin 3) * 64 + 1 * r.val = win1_13.index t (1 : Fin 3) * 64 + r.val; omega
  | ⟨2, _⟩ => show win1_13.index t (2 : Fin 3) * 128 + 1 * p.val = p.val; omega

/-- Point t writes back its block of the fused second stage of the operand arrays. -/
theorem reg1_flushed (V : (c : Dev nD) → (b : Ref sig .tc) → Buf (Elt Ideal) ((c : Thread nD τ).loc b)) (c : Dev nD)
    (hnb : ∀ j, 0 ≤ BitVec.toInt (V c main_v0 j) ∧ BitVec.toInt (V c main_v0 j) < 1024) (t : Fin cfg1.N) :
    (dat1 (F := Ideal) V c).flushed 13 t = ((cfg1.win 13).blk t).view.read (Elt Ideal)
      (G1 (V c main_v5) (V c main_arg1) (V c main_v0) (V c main_arg3) (V c main_arg4) (V c main_arg6)
          (fun f => V c main_v1 (ix2 0 f)) (V c main_arg8) (fun f => V c main_v2 (ix2 0 f)) (V c main_arg10)
          (fun f => V c main_v3 (ix2 0 f)) (V c main_arg12) (fun f => V c main_v4 (ix2 0 f))) := by
  show (cfg1.win 13).cut (grid1.coords t) ((dat1 V c).after 13 t) = _
  rw [after1_13]
  refine funext fun (y : S1x64x128.Idx) => ?_
  obtain ⟨u, r, p, rfl⟩ : ∃ (u : Fin 1) (r : Fin 64) (p : Fin 128), y = ix3 u r p := ⟨y 0, y 1, y 2, eq_ix3 y⟩
  obtain rfl : u = 0 := Subsingleton.elim _ _
  rw [View.read_apply]
  obtain ⟨b, a, hb, ha, hi⟩ := reg1_out_emb t r p
  show out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix3 0 r p)
      = G1 (V c main_v5) (V c main_arg1) (V c main_v0) (V c main_arg3) (V c main_arg4) (V c main_arg6)
          (fun f => V c main_v1 (ix2 0 f)) (V c main_arg8) (fun f => V c main_v2 (ix2 0 f)) (V c main_arg10)
          (fun f => V c main_v3 (ix2 0 f)) (V c main_arg12) (fun f => V c main_v4 (ix2 0 f)) (((cfg1.win 13).blk t).view.emb (ix3 0 r p : S1x64x128.Idx))
  rw [hi]
  have hx2 : ∀ j, 0 ≤ BitVec.toInt (iblk1 (F := Ideal) V c 2 t j) ∧ BitVec.toInt (iblk1 (F := Ideal) V c 2 t j) < 1024 :=
    fun j => hnb (((cfg1.win 2).blk t).view.emb j)
  refine (out1_13_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) hx2 r p).trans ?_
  simp only [reg1_blk0_read V c t b a r hb ha, reg1_blk1_read V c t b a r hb ha, reg1_blk2_read V c t b a r hb ha, reg1_blk3_read V c t b a r hb ha,
    reg1_blk4_read V c t b hb, reg1_blk5_read V c t, reg1_blk6_read V c t, reg1_blk7_read V c t, reg1_blk8_read V c t, reg1_blk9_read V c t,
    reg1_blk10_read V c t, reg1_blk11_read V c t, reg1_blk12_read V c t]
  rfl

/-! ## The output blocks tile the array -/

/-- An index of the output array is in point t's block iff each coordinate is in the block's range on its axis. -/
theorem reg1_mem_out_blk (t : Fin cfg1.N) (i : S8x1024x128.Idx) :
    i ∈ ((cfg1.win 13).blk t).view.set ↔ ∀ a : Fin 3, win1_13.index t a * S1x64x128.size a ≤ (i a).val
      ∧ (i a).val < win1_13.index t a * S1x64x128.size a + S1x64x128.size a := by
  show i ∈ ((View.whole main_v6).slice (win1_13.rect t)).set ↔ _
  rw [View.set_slice_whole, Rect.mem_set_unit]
  exact Iff.rfl

/-- Entry (b, a, p) of the output array is written back by the point of batch b and tile a / 64. -/
theorem reg1_out_cover (i : S8x1024x128.Idx) :
    ∃ t : Fin cfg1.N, (cfg1.win 13).flush t = true ∧ i ∈ ((cfg1.win 13).blk t).view.set := by
  have hi0 : (i 0).val < 8 := (i 0).isLt
  have hi1 : (i 1).val < 1024 := (i 1).isLt
  have hi2 : (i 2).val < 128 := (i 2).isLt
  obtain ⟨t, ht⟩ := reg1_index_onto ⟨(i 0).val, hi0⟩ ⟨(i 1).val / 64, by omega⟩
  have q0 : win1_13.index t (0 : Fin 3) = (i 0).val := congrFun ht 0
  have q1 : win1_13.index t (1 : Fin 3) = (i 1).val / 64 := congrFun ht 1
  have q2 : win1_13.index t (2 : Fin 3) = 0 := congrFun ht 2
  refine ⟨t, flush1_13 t, ?_⟩
  rw [reg1_mem_out_blk]
  intro a
  match a with
  | ⟨0, _⟩ =>
    show win1_13.index t (0 : Fin 3) * 1 ≤ (i 0).val ∧ (i 0).val < win1_13.index t (0 : Fin 3) * 1 + 1
    omega
  | ⟨1, _⟩ =>
    show win1_13.index t (1 : Fin 3) * 64 ≤ (i 1).val ∧ (i 1).val < win1_13.index t (1 : Fin 3) * 64 + 64
    omega
  | ⟨2, _⟩ =>
    show win1_13.index t (2 : Fin 3) * 128 ≤ (i 2).val ∧ (i 2).val < win1_13.index t (2 : Fin 3) * 128 + 128
    omega

/-! ## The array the call leaves -/

theorem reg1_value (V : (c : Dev nD) → (b : Ref sig .tc) → Buf (Elt Ideal) ((c : Thread nD τ).loc b)) (c : Dev nD)
    (hnb : ∀ j, 0 ≤ BitVec.toInt (V c main_v0 j) ∧ BitVec.toInt (V c main_v0 j) < 1024) :
    (dat1 (F := Ideal) V c).arrAt 13 cfg1.N
      = G1 (V c main_v5) (V c main_arg1) (V c main_v0) (V c main_arg3) (V c main_arg4) (V c main_arg6)
          (fun f => V c main_v1 (ix2 0 f)) (V c main_arg8) (fun f => V c main_v2 (ix2 0 f)) (V c main_arg10)
          (fun f => V c main_v3 (ix2 0 f)) (V c main_arg12) (fun f => V c main_v4 (ix2 0 f)) := by
  exact (dat1 (F := Ideal) V c).arrAt_eq_of_cover 13 _ (fun t _ => reg1_flushed V c hnb t) reg1_out_cover

end Cert.Bridge

end
-- ==== Proof.KValue.lean ====
/-
  The kernel program's result buffer after the run, as the specification of the launched argument arrays: the second
  call's array is the fused stage of what it finds (the first call's feature table y = x · in2f_wᵀ, the clamped
  neighbour words, the biases as rows, the other operands as launched), and the specification reads the neighbour
  words only through their clamped rows, which the clamp does not change.
-/
import proofs.«420945_j16234976379044_3_alg».proof.Proof.Gen.KernelIdeal.Frame
import proofs.«420945_j16234976379044_3_alg».proof.Proof.Spec
import proofs.«420945_j16234976379044_3_alg».proof.Proof.Clip
import proofs.«420945_j16234976379044_3_alg».proof.Proof.KHost
import proofs.«420945_j16234976379044_3_alg».proof.Proof.KReg0
import proofs.«420945_j16234976379044_3_alg».proof.Proof.KReg1
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.Bridge

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

theorem kernel_value (c : Dev nD) :
    W5 m ρ c (Proc.devRef .tc main_v6) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h13 : W5 m ρ c (Proc.devRef .tc main_v6) = (dat1 (V4 m ρ) c).arrAt 13 cfg1.N := W5_arr m ρ c 13
  have hnb : ∀ j, 0 ≤ BitVec.toInt (V4 m ρ c main_v0 j) ∧ BitVec.toInt (V4 m ρ c main_v0 j) < 1024 := by
    intro j
    rw [V4_main_v0]
    exact clip_range _
  rw [h13, reg1_value (V4 m ρ) c hnb, V4_main_v5, reg0_value (V3 m ρ) c, V3_main_arg0, V3_main_arg5,
    V4_main_arg1, V4_main_arg3, V4_main_arg4, V4_main_arg6, V4_main_arg8, V4_main_arg10, V4_main_arg12, V4_main_v0]
  have hb1 : (fun f => V4 m ρ c main_v1 (ix2 0 f)) = fun f => m ((c : Thread nD τ).loc main_arg7) (ix1 f) :=
    funext (V4_main_v1 m ρ c)
  have hb2 : (fun f => V4 m ρ c main_v2 (ix2 0 f)) = fun f => m ((c : Thread nD τ).loc main_arg9) (ix1 f) :=
    funext (V4_main_v2 m ρ c)
  have hb3 : (fun f => V4 m ρ c main_v3 (ix2 0 f)) = fun f => m ((c : Thread nD τ).loc main_arg11) (ix1 f) :=
    funext (V4_main_v3 m ρ c)
  have hb4 : (fun f => V4 m ρ c main_v4 (ix2 0 f)) = fun f => m ((c : Thread nD τ).loc main_arg13) (ix1 f) :=
    funext (V4_main_v4 m ρ c)
  rw [hb1, hb2, hb3, hb4]
  unfold G
  exact G1_congr_nbr _ _ _ _ _ _ _ _ _ _ _ _ _ _ (fun j => nbrRow_clip _)

end Cert.Bridge

end
-- ==== Proof.RefG.lean ====
/-
  The reference program's result is the specification: its composed StableHLO term, read one operation at a time at an
  index, is G of the argument arrays whenever every neighbour word is non-negative (then the reference's wrap-around of
  negative indices is the identity and its gather reads the row the word is clamped to).
-/
import proofs.«420945_j16234976379044_3_alg».proof.Proof.Gen.ReferenceIdeal.Read
import proofs.«420945_j16234976379044_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Bridge

open Idealize.ShloMosaic Idealize.ShloMosaic.ValueIdx Cert.ReferenceIdeal Cert.ReferenceIdeal.Gen

open Cert.ReferenceIdeal.Read

/-! ## The shifted softplus as the reference spells it, at a scalar -/

theorem ref_softplus_scalar (z : EReal) :
    FloatOps.subf (F := Ideal) (φ := .f32)
      (Scalar.select (FloatOps.cmpf (F := Ideal) (φ := .f32) .une (FloatOps.subf (F := Ideal) (φ := .f32) z (FloatOps.ofBits .f32 0x00000000#32)) (FloatOps.subf (F := Ideal) (φ := .f32) z (FloatOps.ofBits .f32 0x00000000#32)))
        (FloatOps.addf (F := Ideal) (φ := .f32) z (FloatOps.ofBits .f32 0x00000000#32))
        (FloatOps.addf (F := Ideal) (φ := .f32) (FloatOps.maximumf (F := Ideal) (φ := .f32) z (FloatOps.ofBits .f32 0x00000000#32))
          (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) z (FloatOps.ofBits .f32 0x00000000#32))))))))
      (FloatOps.ofBits .f32 0x3F317218#32) = ssp z :=
  ssp_ref z

/-! ## The filter network -/

/-- The first filter layer before its activation: f_ij · fw1ᵀ + fb1 at (b, a, n, f). -/
theorem ref_filter1_pre_at (x4 : (⟨S8x1024x64x50, .f32⟩ : BufTy).Contents (Elt Ideal)) (x6 : (⟨S128x50, .f32⟩ : BufTy).Contents (Elt Ideal))
    (x7 : (⟨S128, .f32⟩ : BufTy).Contents (Elt Ideal)) (b : Fin 8) (a : Fin 1024) (n : Fin 64) (f : Fin 128) :
    val_main_v3 (F := Ideal) x4 x6 x7 (ix4 b a n f)
      = (∑ s : Fin 50, x4 (ix4 b a n s) * x6 (ix2 f s)) + x7 (ix1 f) := by
  rw [val_main_v3_apply, val_main_v0_apply, val_main_v2_apply, val_main_v1_apply]
  have el : ∀ k : Fin 50, lidx_main_v0 (ix4 b a n f) k = ix4 b a n k := fun k => funext fun d => Fin.ext (by
    match d with
    | ⟨0, _⟩ => rfl
    | ⟨1, _⟩ => rfl
    | ⟨2, _⟩ => rfl
    | ⟨3, _⟩ => rfl)
  have er : ∀ k : Fin 50, ridx_main_v0 (ix4 b a n f) k = ix2 f k := fun k => funext fun d => Fin.ext (by
    match d with
    | ⟨0, _⟩ => rfl
    | ⟨1, _⟩ => rfl)
  have eb : idx_main_v1 (idx_main_v2 (ix4 b a n f)) = ix1 f := funext fun d => Fin.ext (by
    match d with
    | ⟨0, _⟩ => rfl)
  simp only [el, er, eb]
  rfl

/-- The first filter layer after the shifted softplus. -/
theorem ref_filter1_at (x4 : (⟨S8x1024x64x50, .f32⟩ : BufTy).Contents (Elt Ideal)) (x6 : (⟨S128x50, .f32⟩ : BufTy).Contents (Elt Ideal))
    (x7 : (⟨S128, .f32⟩ : BufTy).Contents (Elt Ideal)) (b : Fin 8) (a : Fin 1024) (n : Fin 64) (f : Fin 128) :
    val_main_v6 (F := Ideal) x4 x6 x7 (ix4 b a n f)
      = f1A (fun n s => x4 (ix4 b a n s)) (fun f s => x6 (ix2 f s)) (fun f => x7 (ix1 f)) n f := by
  rw [val_main_v6_apply, val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_v5_apply, val_main_call0_cst_apply, val_main_cst_apply, ref_filter1_pre_at]
  exact ref_softplus_scalar _

/-- The filter: the second filter layer, W(b, a, n, g). -/
theorem ref_filter_at (x4 : (⟨S8x1024x64x50, .f32⟩ : BufTy).Contents (Elt Ideal)) (x6 : (⟨S128x50, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (b : Fin 8) (a : Fin 1024) (n : Fin 64) (g : Fin 128) :
    val_main_v10 (F := Ideal) x4 x6 x7 x8 x9 (ix4 b a n g)
      = wA (fun n s => x4 (ix4 b a n s)) (fun f s => x6 (ix2 f s)) (fun f => x7 (ix1 f)) (fun g f => x8 (ix2 g f))
          (fun f => x9 (ix1 f)) n g := by
  rw [val_main_v10_apply, val_main_v7_apply, val_main_v9_apply, val_main_v8_apply]
  have el : ∀ k : Fin 128, lidx_main_v7 (ix4 b a n g) k = ix4 b a n k := fun k => funext fun d => Fin.ext (by
    match d with
    | ⟨0, _⟩ => rfl
    | ⟨1, _⟩ => rfl
    | ⟨2, _⟩ => rfl
    | ⟨3, _⟩ => rfl)
  have er : ∀ k : Fin 128, ridx_main_v7 (ix4 b a n g) k = ix2 g k := fun k => funext fun d => Fin.ext (by
    match d with
    | ⟨0, _⟩ => rfl
    | ⟨1, _⟩ => rfl)
  have eb : idx_main_v8 (idx_main_v9 (ix4 b a n g)) = ix1 g := funext fun d => Fin.ext (by
    match d with
    | ⟨0, _⟩ => rfl)
  simp only [el, er, eb, ref_filter1_at]
  rfl

/-! ## The cosine cutoff -/

/-- The cutoff at (b, a, n): the reference's r·π/5 is the folded r·(π/5), its unsigned convert of the comparison the bit. -/
theorem ref_cutoff_at (x1 : (⟨S8x1024x64, .f32⟩ : BufTy).Contents (Elt Ideal)) (i : S8x1024x64.Idx) :
    val_main_v23 (F := Ideal) x1 i = cutoff (x1 i) := by
  rw [val_main_v23_apply, val_main_v19_apply, val_main_v22_apply, val_main_v21_apply, val_main_v17_apply,
    val_main_v15_apply, val_main_v14_apply, val_main_v12_apply, val_main_v18_apply, val_main_v16_apply,
    val_main_v13_apply, val_main_v11_apply, val_main_v20_apply, val_main_cst_0_apply, val_main_cst_1_apply,
    val_main_cst_2_apply, val_main_cst_3_apply, val_main_cst_4_apply]
  unfold cutoff
  rw [← angle_eq, ← bit_eq_toNat]
  rfl

/-! ## The atom features through the dense layer, and the gathered rows -/

/-- y = x · in2f_wᵀ as an array. -/
theorem ref_features_eq_yArr (x0 : (⟨S8x1024x128, .f32⟩ : BufTy).Contents (Elt Ideal)) (x5 : (⟨S128x128, .f32⟩ : BufTy).Contents (Elt Ideal)) :
    val_main_v27 (F := Ideal) x0 x5 = yArr x0 x5 := by
  funext i
  obtain ⟨b, a, f, rfl⟩ : ∃ (b : Fin 8) (a : Fin 1024) (f : Fin 128), i = ix3 b a f := ⟨i 0, i 1, i 2, eq_ix3 i⟩
  rw [val_main_v27_apply]
  have el : ∀ k : Fin 128, lidx_main_v27 (ix3 b a f) k = ix3 b a k := fun k => funext fun d => Fin.ext (by
    match d with
    | ⟨0, _⟩ => rfl
    | ⟨1, _⟩ => rfl
    | ⟨2, _⟩ => rfl)
  have er : ∀ k : Fin 128, ridx_main_v27 (ix3 b a f) k = ix2 f k := fun k => funext fun d => Fin.ext (by
    match d with
    | ⟨0, _⟩ => rfl
    | ⟨1, _⟩ => rfl)
  simp only [el, er]
  rfl

/-- A non-negative neighbour word is not wrapped: the reference's select on "n < 0" keeps it. -/
theorem ref_wrap_nonneg (x2 : (⟨S8x1024x64, .i32⟩ : BufTy).Contents (Elt Ideal)) (hnn : ∀ j, 0 ≤ BitVec.toInt (x2 j)) (i : S8x1024x64.Idx) :
    val_main_v32 (F := Ideal) x2 i = x2 i := by
  rw [val_main_v32_apply, val_main_v29_apply, val_main_v28_apply, val_main_c_apply]
  have h : IntOp.cmpi .slt (x2 i) 0#32 = 0#1 := by
    refine eq_zero_of_ne_one fun h1 => ?_
    have h2 := IntOp.cmpi_slt.mp h1
    have h3 := hnn i
    have h4 : (0#32 : BitVec 32).toInt = 0 := by decide
    omega
  rw [h, select_zero]

/-- The reference's gather: operand [8, 1024, 128], start indices [8, 1024, 64, 1]; axis 0 batched, axis 1 collapsed and
    indexed, axis 2 the offset axis. -/
abbrev refGather : GatherDims S8x1024x128 S8x1024x64x1 S8x1024x64x128 :=
  gather_S8x1024x128_S8x1024x64x1_S8x1024x64x128_3_1_0_0_1_3_11128

/-- On the batched axis the operand coordinate is the result's batch coordinate. -/
theorem refGather_batch_axis (idx : IVec S8x1024x64x1 32) (j : S8x1024x64x128.Idx) :
    refGather.start j idx 0 + refGather.batchCoord j 0 + refGather.offCoord j 0 = (j 0).val := by
  rw [GatherDims.start_batching refGather j idx 0 (by decide), GatherDims.offCoord_eq_zero refGather j 0 (by decide), Nat.zero_add, Nat.add_zero]
  unfold GatherDims.batchCoord
  rw [dif_pos (by decide)]
  rfl

/-- The start-indices index a result index reads its one start-index component at. -/
abbrev refGatherStartIdx (j : S8x1024x64x128.Idx) : S8x1024x64x1.Idx :=
  ix4 (j 0) (j 1) (j 2) (0 : Fin 1)

/-- On the collapsed axis the operand coordinate is the start index, read signed and clamped into [0, 1023]. -/
theorem refGather_row_axis (idx : IVec S8x1024x64x1 32) (j : S8x1024x64x128.Idx) :
    refGather.start j idx 1 + refGather.batchCoord j 1 + refGather.offCoord j 1 = min (idx (refGatherStartIdx j)).toInt.toNat 1023 := by
  rw [GatherDims.batchCoord_eq_zero refGather j 1 (by decide), GatherDims.offCoord_eq_zero refGather j 1 (by decide), Nat.add_zero]
  unfold GatherDims.start
  rw [dif_pos (by decide)]
  have hsi : refGather.siIdx j ⟨List.idxOf (1 : Fin S8x1024x128.rank) refGather.startIndexMap,
      List.idxOf_lt_length_iff.2 (by decide)⟩ = refGatherStartIdx j := by
    funext c; refine Fin.ext ?_
    match c with
    | ⟨0, _⟩ => rfl
    | ⟨1, _⟩ => rfl
    | ⟨2, _⟩ => rfl
    | ⟨3, _⟩ => rfl
  rw [hsi]
  rfl

/-- On the offset axis the operand coordinate is the result's last coordinate. -/
theorem refGather_offset_axis (idx : IVec S8x1024x64x1 32) (j : S8x1024x64x128.Idx) :
    refGather.start j idx 2 + refGather.batchCoord j 2 + refGather.offCoord j 2 = (j 3).val := by
  have hs : refGather.start j idx 2 = 0 := by
    unfold GatherDims.start
    rw [dif_neg (by decide)]
  rw [hs, GatherDims.batchCoord_eq_zero refGather j 2 (by decide), Nat.zero_add]
  unfold GatherDims.offCoord
  rw [dif_pos (by decide)]
  rfl

/-- THE GATHER READ AT (b, a, n, f): the operand's row (b, start index of (b, a, n) read signed and clamped, f). -/
theorem refGather_at {α : Type} (y : S8x1024x128.Idx → α) (idx : IVec S8x1024x64x1 32) (b : Fin 8) (a : Fin 1024) (n : Fin 64) (f : Fin 128) :
    Host.gather refGather y idx (ix4 b a n f)
      = y (ix3 b ⟨min (idx (ix4 b a n (0 : Fin 1))).toInt.toNat 1023, by omega⟩ f) := by
  unfold Host.gather
  refine congrArg y ?_
  funext d
  refine Fin.ext ?_
  match d with
  | ⟨0, _⟩ => exact refGather_batch_axis idx _
  | ⟨1, _⟩ => exact refGather_row_axis idx _
  | ⟨2, _⟩ => exact refGather_offset_axis idx _

/-- The gathered neighbour features: with a non-negative word the start index is the word itself and the row read is the
    word's clamped row. -/
theorem ref_gathered_at (x0 : (⟨S8x1024x128, .f32⟩ : BufTy).Contents (Elt Ideal)) (x2 : (⟨S8x1024x64, .i32⟩ : BufTy).Contents (Elt Ideal))
    (x5 : (⟨S128x128, .f32⟩ : BufTy).Contents (Elt Ideal)) (hnn : ∀ j, 0 ≤ BitVec.toInt (x2 j))
    (b : Fin 8) (a : Fin 1024) (n : Fin 64) (f : Fin 128) :
    val_main_v34 (F := Ideal) x0 x2 x5 (ix4 b a n f) = yArr x0 x5 (ix3 b (nbrRow (x2 (ix3 b a n))) f) := by
  unfold val_main_v34
  rw [ref_features_eq_yArr]
  refine (refGather_at (yArr x0 x5) (val_main_v33 (F := Ideal) x2) b a n f).trans ?_
  have e : val_main_v33 (F := Ideal) x2 (ix4 b a n (0 : Fin 1)) = x2 (ix3 b a n) := by
    rw [val_main_v33_apply, ref_wrap_nonneg x2 hnn]
    refine congrArg x2 ?_
    funext d
    refine Fin.ext ?_
    match d with
    | ⟨0, _⟩ => rfl
    | ⟨1, _⟩ => rfl
    | ⟨2, _⟩ => rfl
  refine congrArg (fun r => yArr x0 x5 (ix3 b r f)) ?_
  refine Fin.ext ?_
  show min (val_main_v33 (F := Ideal) x2 (ix4 b a n (0 : Fin 1))).toInt.toNat 1023 = min (x2 (ix3 b a n)).toInt.toNat 1023
  rw [e]

/-! ## The continuous-filter convolution -/

/-- One neighbour's term: the reference multiplies ((y · (W · C)) · mask), the specification y · (W · (C · mask)). -/
theorem ref_term_at (x0 : (⟨S8x1024x128, .f32⟩ : BufTy).Contents (Elt Ideal)) (x1 : (⟨S8x1024x64, .f32⟩ : BufTy).Contents (Elt Ideal))
    (x2 : (⟨S8x1024x64, .i32⟩ : BufTy).Contents (Elt Ideal)) (x3 : (⟨S8x1024x64, .f32⟩ : BufTy).Contents (Elt Ideal))
    (x4 : (⟨S8x1024x64x50, .f32⟩ : BufTy).Contents (Elt Ideal)) (x5 : (⟨S128x128, .f32⟩ : BufTy).Contents (Elt Ideal))
    (x6 : (⟨S128x50, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (hnn : ∀ j, 0 ≤ BitVec.toInt (x2 j)) (b : Fin 8) (a : Fin 1024) (n : Fin 64) (f : Fin 128) :
    val_main_v38 (F := Ideal) x0 x1 x2 x3 x4 x5 x6 x7 x8 x9 (ix4 b a n f)
      = yArr x0 x5 (ix3 b (nbrRow (x2 (ix3 b a n))) f)
          * (wA (fun n s => x4 (ix4 b a n s)) (fun f s => x6 (ix2 f s)) (fun f => x7 (ix1 f)) (fun g f => x8 (ix2 g f))
              (fun f => x9 (ix1 f)) n f
            * (cutoff (x1 (ix3 b a n)) * x3 (ix3 b a n))) := by
  rw [val_main_v38_apply, val_main_v35_apply, val_main_v26_apply, val_main_v25_apply, val_main_v24_apply,
    val_main_v37_apply, val_main_v36_apply, ref_gathered_at x0 x2 x5 hnn, ref_filter_at, ref_cutoff_at]
  have e1 : idx_main_v24 (idx_main_v25 (ix4 b a n f)) = ix3 b a n := funext fun d => Fin.ext (by
    match d with
    | ⟨0, _⟩ => rfl
    | ⟨1, _⟩ => rfl
    | ⟨2, _⟩ => rfl)
  have e2 : idx_main_v36 (idx_main_v37 (ix4 b a n f)) = ix3 b a n := funext fun d => Fin.ext (by
    match d with
    | ⟨0, _⟩ => rfl
    | ⟨1, _⟩ => rfl
    | ⟨2, _⟩ => rfl)
  rw [e1, e2]
  show (_ * (_ * _)) * _ = _
  rw [mul_assoc, mul_assoc]

/-- The sum over the neighbours, from the zero word. -/
theorem ref_agg_at (x0 : (⟨S8x1024x128, .f32⟩ : BufTy).Contents (Elt Ideal)) (x1 : (⟨S8x1024x64, .f32⟩ : BufTy).Contents (Elt Ideal))
    (x2 : (⟨S8x1024x64, .i32⟩ : BufTy).Contents (Elt Ideal)) (x3 : (⟨S8x1024x64, .f32⟩ : BufTy).Contents (Elt Ideal))
    (x4 : (⟨S8x1024x64x50, .f32⟩ : BufTy).Contents (Elt Ideal)) (x5 : (⟨S128x128, .f32⟩ : BufTy).Contents (Elt Ideal))
    (x6 : (⟨S128x50, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (hnn : ∀ j, 0 ≤ BitVec.toInt (x2 j)) (b : Fin 8) (a : Fin 1024) (f : Fin 128) :
    val_main_v39 (F := Ideal) x0 x1 x2 x3 x4 x5 x6 x7 x8 x9 (ix3 b a f)
      = aggA (fun a' f => yArr x0 x5 (ix3 b a' f)) (fun n => x1 (ix3 b a n)) (fun n => x2 (ix3 b a n)) (fun n => x3 (ix3 b a n))
          (fun n s => x4 (ix4 b a n s)) (fun f s => x6 (ix2 f s)) (fun f => x7 (ix1 f)) (fun g f => x8 (ix2 g f))
          (fun f => x9 (ix1 f)) f := by
  rw [val_main_v39_apply, val_main_cst_6_apply]
  have e : ∀ k : Fin 64, idx_main_v39 (ix3 b a f) k = ix4 b a k f := fun k => funext fun d => Fin.ext (by
    match d with
    | ⟨0, _⟩ => rfl
    | ⟨1, _⟩ => rfl
    | ⟨2, _⟩ => rfl
    | ⟨3, _⟩ => rfl)
  simp only [e, ref_term_at x0 x1 x2 x3 x4 x5 x6 x7 x8 x9 hnn]
  rw [Ideal.ofBits_def, Ideal.ofBits_zero_f32, zero_add]
  rfl

/-! ## The two output layers -/

/-- The first output layer before its activation: agg · f2out_wᵀ + f2out_b at (b, a, o). -/
theorem ref_out1_pre_at (x0 : (⟨S8x1024x128, .f32⟩ : BufTy).Contents (Elt Ideal)) (x1 : (⟨S8x1024x64, .f32⟩ : BufTy).Contents (Elt Ideal))
    (x2 : (⟨S8x1024x64, .i32⟩ : BufTy).Contents (Elt Ideal)) (x3 : (⟨S8x1024x64, .f32⟩ : BufTy).Contents (Elt Ideal))
    (x4 : (⟨S8x1024x64x50, .f32⟩ : BufTy).Contents (Elt Ideal)) (x5 : (⟨S128x128, .f32⟩ : BufTy).Contents (Elt Ideal))
    (x6 : (⟨S128x50, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (hnn : ∀ j, 0 ≤ BitVec.toInt (x2 j)) (b : Fin 8) (a : Fin 1024) (o : Fin 128) :
    val_main_v43 (F := Ideal) x0 x1 x2 x3 x4 x5 x6 x7 x8 x9 x10 x11 (ix3 b a o)
      = (∑ f : Fin 128, aggA (fun a' f => yArr x0 x5 (ix3 b a' f)) (fun n => x1 (ix3 b a n)) (fun n => x2 (ix3 b a n)) (fun n => x3 (ix3 b a n))
          (fun n s => x4 (ix4 b a n s)) (fun f s => x6 (ix2 f s)) (fun f => x7 (ix1 f)) (fun g f => x8 (ix2 g f))
          (fun f => x9 (ix1 f)) f * x10 (ix2 o f)) + x11 (ix1 o) := by
  rw [val_main_v43_apply, val_main_v40_apply, val_main_v42_apply, val_main_v41_apply]
  have el : ∀ k : Fin 128, lidx_main_v40 (ix3 b a o) k = ix3 b a k := fun k => funext fun d => Fin.ext (by
    match d with
    | ⟨0, _⟩ => rfl
    | ⟨1, _⟩ => rfl
    | ⟨2, _⟩ => rfl)
  have er : ∀ k : Fin 128, ridx_main_v40 (ix3 b a o) k = ix2 o k := fun k => funext fun d => Fin.ext (by
    match d with
    | ⟨0, _⟩ => rfl
    | ⟨1, _⟩ => rfl)
  have eb : idx_main_v41 (idx_main_v42 (ix3 b a o)) = ix1 o := funext fun d => Fin.ext (by
    match d with
    | ⟨0, _⟩ => rfl)
  simp only [el, er, eb, ref_agg_at x0 x1 x2 x3 x4 x5 x6 x7 x8 x9 hnn]
  rfl

/-- The first output layer after the shifted softplus. -/
theorem ref_out1_at (x0 : (⟨S8x1024x128, .f32⟩ : BufTy).Contents (Elt Ideal)) (x1 : (⟨S8x1024x64, .f32⟩ : BufTy).Contents (Elt Ideal))
    (x2 : (⟨S8x1024x64, .i32⟩ : BufTy).Contents (Elt Ideal)) (x3 : (⟨S8x1024x64, .f32⟩ : BufTy).Contents (Elt Ideal))
    (x4 : (⟨S8x1024x64x50, .f32⟩ : BufTy).Contents (Elt Ideal)) (x5 : (⟨S128x128, .f32⟩ : BufTy).Contents (Elt Ideal))
    (x6 : (⟨S128x50, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (hnn : ∀ j, 0 ≤ BitVec.toInt (x2 j)) (b : Fin 8) (a : Fin 1024) (o : Fin 128) :
    val_main_v46 (F := Ideal) x0 x1 x2 x3 x4 x5 x6 x7 x8 x9 x10 x11 (ix3 b a o)
      = ssp ((∑ f : Fin 128, aggA (fun a' f => yArr x0 x5 (ix3 b a' f)) (fun n => x1 (ix3 b a n)) (fun n => x2 (ix3 b a n)) (fun n => x3 (ix3 b a n))
          (fun n s => x4 (ix4 b a n s)) (fun f s => x6 (ix2 f s)) (fun f => x7 (ix1 f)) (fun g f => x8 (ix2 g f))
          (fun f => x9 (ix1 f)) f * x10 (ix2 o f)) + x11 (ix1 o)) := by
  rw [val_main_v46_apply, val_main_v44_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_v45_apply, val_main_call1_cst_apply, val_main_cst_7_apply,
    ref_out1_pre_at x0 x1 x2 x3 x4 x5 x6 x7 x8 x9 x10 x11 hnn]
  exact ref_softplus_scalar _

/-- The second output layer: the result at (b, a, p). -/
theorem ref_out2_at (x0 : (⟨S8x1024x128, .f32⟩ : BufTy).Contents (Elt Ideal)) (x1 : (⟨S8x1024x64, .f32⟩ : BufTy).Contents (Elt Ideal))
    (x2 : (⟨S8x1024x64, .i32⟩ : BufTy).Contents (Elt Ideal)) (x3 : (⟨S8x1024x64, .f32⟩ : BufTy).Contents (Elt Ideal))
    (x4 : (⟨S8x1024x64x50, .f32⟩ : BufTy).Contents (Elt Ideal)) (x5 : (⟨S128x128, .f32⟩ : BufTy).Contents (Elt Ideal))
    (x6 : (⟨S128x50, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal))
    (hnn : ∀ j, 0 ≤ BitVec.toInt (x2 j)) (b : Fin 8) (a : Fin 1024) (p : Fin 128) :
    val_main_v50 (F := Ideal) x0 x1 x2 x3 x4 x5 x6 x7 x8 x9 x10 x11 x12 x13 (ix3 b a p)
      = headA (aggA (fun a' f => yArr x0 x5 (ix3 b a' f)) (fun n => x1 (ix3 b a n)) (fun n => x2 (ix3 b a n)) (fun n => x3 (ix3 b a n))
          (fun n s => x4 (ix4 b a n s)) (fun f s => x6 (ix2 f s)) (fun f => x7 (ix1 f)) (fun g f => x8 (ix2 g f))
          (fun f => x9 (ix1 f))) (fun o f => x10 (ix2 o f)) (fun f => x11 (ix1 f)) (fun p o => x12 (ix2 p o)) (fun f => x13 (ix1 f)) p := by
  rw [val_main_v50_apply, val_main_v47_apply, val_main_v49_apply, val_main_v48_apply]
  have el : ∀ k : Fin 128, lidx_main_v47 (ix3 b a p) k = ix3 b a k := fun k => funext fun d => Fin.ext (by
    match d with
    | ⟨0, _⟩ => rfl
    | ⟨1, _⟩ => rfl
    | ⟨2, _⟩ => rfl)
  have er : ∀ k : Fin 128, ridx_main_v47 (ix3 b a p) k = ix2 p k := fun k => funext fun d => Fin.ext (by
    match d with
    | ⟨0, _⟩ => rfl
    | ⟨1, _⟩ => rfl)
  have eb : idx_main_v48 (idx_main_v49 (ix3 b a p)) = ix1 p := funext fun d => Fin.ext (by
    match d with
    | ⟨0, _⟩ => rfl)
  simp only [el, er, eb, ref_out1_at x0 x1 x2 x3 x4 x5 x6 x7 x8 x9 x10 x11 hnn]
  rfl

/-! ## The reference is G -/

theorem ref_value (x0 : (⟨S8x1024x128, .f32⟩ : BufTy).Contents (Elt Ideal)) (x1 : (⟨S8x1024x64, .f32⟩ : BufTy).Contents (Elt Ideal))
    (x2 : (⟨S8x1024x64, .i32⟩ : BufTy).Contents (Elt Ideal)) (x3 : (⟨S8x1024x64, .f32⟩ : BufTy).Contents (Elt Ideal))
    (x4 : (⟨S8x1024x64x50, .f32⟩ : BufTy).Contents (Elt Ideal)) (x5 : (⟨S128x128, .f32⟩ : BufTy).Contents (Elt Ideal))
    (x6 : (⟨S128x50, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal))
    (hnn : ∀ j, 0 ≤ BitVec.toInt (x2 j)) :
    Cert.ReferenceIdeal.Read.val_main_v50 (F := Ideal) x0 x1 x2 x3 x4 x5 x6 x7 x8 x9 x10 x11 x12 x13
      = G x0 x1 x2 x3 x4 x5 x6 x7 x8 x9 x10 x11 x12 x13 := by
  funext i
  obtain ⟨b, a, p, rfl⟩ : ∃ (b : Fin 8) (a : Fin 1024) (p : Fin 128), i = ix3 b a p := ⟨i 0, i 1, i 2, eq_ix3 i⟩
  rw [ref_out2_at x0 x1 x2 x3 x4 x5 x6 x7 x8 x9 x10 x11 x12 x13 hnn]
  rfl

end Cert.Bridge

end
-- ==== Proof.PreDecode.lean ====
/-
  The precondition, decoded: where the printed predicate is all ones, its last conjunct — the conjunction over every
  entry of "neighbour word ≥ 0 as a signed integer" — says that every neighbour word is non-negative.
-/
import proofs.«420945_j16234976379044_3_alg».proof.Proof.Gen.Pre_finite_inputs
import Idealize.ShloMosaic.Lib.ValueIdx
import Idealize.ShloMosaic.Lib.ReduceAll
import Idealize.ShloMosaic.Lib.StableHlo.Predicate

noncomputable section

namespace Cert.Bridge

open Idealize.ShloMosaic Idealize.ShloMosaic.ValueIdx Cert.Pre_finite_inputs

/-- A rank-0 shape has a single index. -/
instance subsingleton_scalar_idx : Subsingleton S_.Idx := ⟨fun a b => funext fun d => d.elim0⟩

/-- The last part of the printed predicate: where its one-bit result is 1, its last conjunct — the conjunction over all
    entries of "word ≥ 0, signed" — is 1, so each entry's comparison is 1, which says the entry is non-negative. -/
theorem part3_nbr_nonneg [Cert.Pre_finite_inputs.Facts]
    (a2 : IVec S8x1024x64 32) (a12 : FVec Ideal S128x128 .f32) (a13 : FVec Ideal S128 .f32) (v48 : IVec S_ 1)
    (v49 v50 : FVec Ideal S128 .f32)
    (h : Cert.Pre_finite_inputs.fn_part3 (F := Ideal) a2 a12 a13 v48 v49 v50 ValueIdx.ix0 = 1#1) :
    ∀ j, 0 ≤ BitVec.toInt (a2 j) := by
  intro j
  unfold Cert.Pre_finite_inputs.fn_part3 at h
  have hall := (IntOp.andi_eq_one.1 h).2
  have hj := Host.reduce_andi_all _ _ _ _ _ hall j
  have hle := IntOp.cmpi_sge.1 hj
  exact hle

theorem nbr_nonneg [Cert.Pre_finite_inputs.Facts]
    (x0 : FVec Ideal S8x1024x128 .f32) (x1 : FVec Ideal S8x1024x64 .f32) (x2 : IVec S8x1024x64 32) (x3 : FVec Ideal S8x1024x64 .f32)
    (x4 : FVec Ideal S8x1024x64x50 .f32) (x5 : FVec Ideal S128x128 .f32) (x6 : FVec Ideal S128x50 .f32) (x7 : FVec Ideal S128 .f32)
    (x8 : FVec Ideal S128x128 .f32) (x9 : FVec Ideal S128 .f32) (x10 : FVec Ideal S128x128 .f32) (x11 : FVec Ideal S128 .f32)
    (x12 : FVec Ideal S128x128 .f32) (x13 : FVec Ideal S128 .f32)
    (h : Cert.Pre_finite_inputs.fn (F := Ideal) x0 x1 x2 x3 x4 x5 x6 x7 x8 x9 x10 x11 x12 x13 = fun _ => 1#1) :
    ∀ j, 0 ≤ BitVec.toInt (x2 j) := by
  have h0 := congrFun h ValueIdx.ix0
  unfold Cert.Pre_finite_inputs.fn Cert.Pre_finite_inputs.fn_part1 Cert.Pre_finite_inputs.fn_part2 at h0
  exact part3_nbr_nonneg x2 _ _ _ _ _ h0

end Cert.Bridge

end
-- ==== Proof.lean ====
/-
  The kernel-equivalence certificate of a continuous-filter convolution block (a SchNet interaction): a fused Pallas
  implementation in two pallas_calls — y = x · in2f_wᵀ per batch, then per tile of 64 atoms the filter network on the
  radial features, the cosine cutoff, the neighbour gather done as four one-hot matrix products against the resident
  feature table, the masked sum over the 64 neighbours, and the two output layers — against the plain jnp reference.

  On the extended reals both programs compute the function G of Proof/Spec.lean. The two sides differ only in
  arrangement: the kernel folds π/5 into one single-precision word, which IS the single-precision π over five, exactly
  (r · (π/5) = (r · π) / 5 for every extended real r); the kernel multiplies y · (W · (C · mask)) where the reference
  multiplies ((y · (W · C)) · mask), equal by associativity of the product of extended reals; the kernel reads the
  neighbour's feature row through one-hot products, which for a word in [0, 1023] is that row; and the kernel clamps the
  neighbour words into [0, 1023] on the host where the reference wraps negative words around before a clamping
  gather: for non-negative words both read the row min(n, 1023), which is what the added precondition conjunct
  "every neighbour word is non-negative" provides. No finiteness of the float inputs is used.

  The frames of the two kernel programs are the generated ones; the reference's frame is its generated run with the
  result dropped; the ideal pass rewrote nothing, so preservation is trivial.
-/
import proofs.«420945_j16234976379044_3_alg».proof.Defs
import proofs.«420945_j16234976379044_3_alg».proof.Proof.Gen.Kernel
import proofs.«420945_j16234976379044_3_alg».proof.Proof.Gen.Kernel.Skeleton
import proofs.«420945_j16234976379044_3_alg».proof.Proof.Gen.Kernel.Launch
import proofs.«420945_j16234976379044_3_alg».proof.Proof.Gen.Kernel.Points
import proofs.«420945_j16234976379044_3_alg».proof.Proof.Gen.Kernel.Frame
import proofs.«420945_j16234976379044_3_alg».proof.Proof.Gen.KernelIdeal
import proofs.«420945_j16234976379044_3_alg».proof.Proof.Gen.KernelIdeal.Skeleton
import proofs.«420945_j16234976379044_3_alg».proof.Proof.Gen.KernelIdeal.Launch
import proofs.«420945_j16234976379044_3_alg».proof.Proof.Gen.KernelIdeal.Points
import proofs.«420945_j16234976379044_3_alg».proof.Proof.Gen.KernelIdeal.Frame
import proofs.«420945_j16234976379044_3_alg».proof.Proof.Gen.ReferenceIdeal
import proofs.«420945_j16234976379044_3_alg».proof.Proof.Gen.Pre_finite_inputs
import proofs.«420945_j16234976379044_3_alg».proof.Proof.Gen.ReferenceIdeal.Run
import proofs.«420945_j16234976379044_3_alg».proof.Proof.Gen.ReferenceIdeal.Read
import proofs.«420945_j16234976379044_3_alg».proof.Proof.Spec
import proofs.«420945_j16234976379044_3_alg».proof.Proof.KRun
import proofs.«420945_j16234976379044_3_alg».proof.Proof.KValue
import proofs.«420945_j16234976379044_3_alg».proof.Proof.RefG
import proofs.«420945_j16234976379044_3_alg».proof.Proof.PreDecode
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's run with its result read as the specification of the launched arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v6)
          = Cert.Bridge.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun _ h c => ⟨(h c).1.trans (Cert.Bridge.kernel_value m ρ c), (h c).2⟩)
    (Cert.KernelIdeal.GenRun.run_result (F := Ideal) m ρ)

/-- From memories agreeing on the arguments the two idealized programs end with the same result, the specification of
    the arguments: the kernel by its run read through the two calls, the reference by its run read one operation at a
    time, the neighbour words non-negative by the precondition. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact Cert.Bridge.ref_value _ _ _ _ _ _ _ _ _ _ _ _ _ _ (Cert.Bridge.nbr_nonneg _ _ _ _ _ _ _ _ _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
